-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S16x8192x2048 : Shape := ⟨3, ![16, 8192, 2048]⟩
abbrev S16x2048x4096 : Shape := ⟨3, ![16, 2048, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x8192x2048 : S_.BroadcastsInDim S16x8192x2048 (![] : Fin 0 → Fin S16x8192x2048.rank)
  reducesTo_S16x8192x2048_S_d0_1_2 : S16x8192x2048.ReducesTo [0, 1, 2] S_
  bcast_S_S16x2048x4096 : S_.BroadcastsInDim S16x2048x4096 (![] : Fin 0 → Fin S16x2048x4096.rank)
  reducesTo_S16x2048x4096_S_d0_1_2 : S16x2048x4096.ReducesTo [0, 1, 2] S_

variable [Facts]

def fn {F : FTy → Type} [FloatOps F] (main_arg0 : FVec F S8192x2048 .f32) (main_arg1 : FVec F S16x8192x2048 .f32) (main_arg2 : FVec F S16x2048x4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S16x8192x2048 .f32 := Host.absf main_arg1
  let main_cst_0 : FVec F S_ .f32 := constant S_ .f32 0x7F800000#32
  let main_v5 : FVec F S16x8192x2048 .f32 := broadcastInDim S16x8192x2048 ![] bcast_S_S16x8192x2048 main_cst_0
  let main_v6 : IVec S16x8192x2048 1 := cmpf .olt main_v4 main_v5
  let main_c_1 : IVec S_ 1 := constantI S_ 1 1#1
  let main_v7 : IVec S_ 1 := (fun x v => Host.reduce IntOp.andi x v reducesTo_S16x8192x2048_S_d0_1_2 h_S_) main_v6 main_c_1
  let main_v8 : IVec S_ 1 := andi main_v3 main_v7
  let main_v9 : FVec F S16x2048x4096 .f32 := Host.absf main_arg2
  let main_cst_2 : FVec F S_ .f32 := constant S_ .f32 0x7F800000#32
  let main_v10 : FVec F S16x2048x4096 .f32 := broadcastInDim S16x2048x4096 ![] bcast_S_S16x2048x4096 main_cst_2
  let main_v11 : IVec S16x2048x4096 1 := cmpf .olt main_v9 main_v10
  let main_c_3 : IVec S_ 1 := constantI S_ 1 1#1
  let main_v12 : IVec S_ 1 := (fun x v => Host.reduce IntOp.andi x v reducesTo_S16x2048x4096_S_d0_1_2 h_S_) main_v11 main_c_3
  let main_v13 : IVec S_ 1 := andi main_v8 main_v12
  main_v13
-- ==== Kernel.lean ====
abbrev S8192x2048 : Shape := ⟨2, ![8192, 2048]⟩
abbrev S16x8192x2048 : Shape := ⟨3, ![16, 8192, 2048]⟩
abbrev S16x2048x4096 : Shape := ⟨3, ![16, 2048, 4096]⟩
abbrev S16x512x2048 : Shape := ⟨3, ![16, 512, 2048]⟩
abbrev S1x512x2048 : Shape := ⟨3, ![1, 512, 2048]⟩
abbrev S1x128x2048 : Shape := ⟨3, ![1, 128, 2048]⟩
abbrev S1x2048x128 : Shape := ⟨3, ![1, 2048, 128]⟩
abbrev S512x2048 : Shape := ⟨2, ![512, 2048]⟩
abbrev S128x2048 : Shape := ⟨2, ![128, 2048]⟩
abbrev S2048x128 : Shape := ⟨2, ![2048, 128]⟩
abbrev S512x128 : Shape := ⟨2, ![512, 128]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S16x8192x2048, .f32⟩
  | .hbm, ⟨2, _⟩ => ⟨S16x2048x4096, .f32⟩
  | .hbm, ⟨3, _⟩ => ⟨S16x512x2048, .f32⟩
  | .hbm, ⟨4, _⟩ => ⟨S16x512x2048, .f32⟩
  | .hbm, ⟨5, _⟩ => ⟨S8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x2048x128, .f32⟩
  | .local _ .vmem, ⟨7, _⟩ => ⟨S1x2048x128, .f32⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192x2048_S16x512x2048 : S8192x2048.ShapeCasts S16x512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S512x2048_S1x512x2048 : S512x2048.ShapeCasts S1x512x2048
  shapeCasts_S16x512x2048_S8192x2048 : S16x512x2048.ShapeCasts S8192x2048
  dot_S512x2048_S128x2048_S512x128_1_1_0_0_n_n_wf : DotDims.WF S512x2048 S128x2048 S512x128 [1] [1] [0] [0] [] []
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x512x2048.size a
  hwx0_0 : ∀ i : grid0.Coords, EltTy.bits .f32 = 32 ∨ (Rect.block (s := S16x512x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S16x8192x2048.size a
  hwx0_1 : ∀ i : grid0.Coords, EltTy.bits .f32 = 32 ∨ (Rect.block (s := S16x8192x2048) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S16x8192x2048.size a
  hwx0_2 : ∀ i : grid0.Coords, EltTy.bits .f32 = 32 ∨ (Rect.block (s := S16x8192x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x2048x4096.size a
  hwx0_3 : ∀ i : grid0.Coords, EltTy.bits .f32 = 32 ∨ (Rect.block (s := S16x2048x4096) S1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x512x2048.size a
  hwx0_4 : ∀ i : grid0.Coords, EltTy.bits .f32 = 32 ∨ (Rect.block (s := S16x512x2048) S1x512x2048.size (cc0_transform_4 i) (hinb0_4 i)).WholeWords (EltTy.packing .f32)

variable [Facts₀]

def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S16x8192x2048 : Shape := ⟨3, ![16, 8192, 2048]⟩
abbrev S16x2048x4096 : Shape := ⟨3, ![16, 2048, 4096]⟩
abbrev S16x512x2048 : Shape := ⟨3, ![16, 512, 2048]⟩
abbrev S16x512x8192 : Shape := ⟨3, ![16, 512, 8192]⟩
abbrev S16x512x4096 : Shape := ⟨3, ![16, 512, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x8192x2048, .f32⟩
  | .hbm, ⟨2, _⟩ => ⟨S16x2048x4096, .f32⟩
  | .hbm, ⟨3, _⟩ => ⟨S16x512x2048, .f32⟩
  | .hbm, ⟨4, _⟩ => ⟨S16x512x8192, .f32⟩
  | .hbm, ⟨5, _⟩ => ⟨S16x512x4096, .f32⟩
  | .hbm, ⟨6, _⟩ => ⟨S16x512x4096, .f32⟩
  | .hbm, ⟨7, _⟩ => ⟨S16x512x4096, .f32⟩
  | .hbm, ⟨8, _⟩ => ⟨S16x512x4096, .f32⟩
  | .hbm, ⟨9, _⟩ => ⟨S_, .f32⟩
  | .hbm, ⟨10, _⟩ => ⟨S16x512x4096, .f32⟩
  | .hbm, ⟨11, _⟩ => ⟨S16x512x4096, .f32⟩
  | .hbm, ⟨12, _⟩ => ⟨S_, .f32⟩
  | .hbm, ⟨13, _⟩ => ⟨S16x512x4096, .f32⟩
  | .hbm, ⟨14, _⟩ => ⟨S16x512x4096, .f32⟩
  | .hbm, ⟨15, _⟩ => ⟨S16x512x4096, .f32⟩
  | .hbm, ⟨16, _⟩ => ⟨S16x512x4096, .f32⟩
  | .hbm, ⟨17, _⟩ => ⟨S16x512x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S16x512x2048 : S8192x2048.ShapeCasts S16x512x2048
  slices_S16x512x8192_S16x512x4096_0_0_0 : S16x512x8192.Slices ![0, 0, 0] S16x512x4096
  slices_S16x512x8192_S16x512x4096_0_0_4096 : S16x512x8192.Slices ![0, 0, 4096] S16x512x4096
  bcast_S_S16x512x4096 : S_.BroadcastsInDim S16x512x4096 (![] : Fin 0 → Fin S16x512x4096.rank)
  shapeCasts_S16x512x2048_S8192x2048 : S16x512x2048.ShapeCasts S8192x2048
  dot_S16x512x2048_S16x8192x2048_S16x512x8192_2_2_1_1_0_0_wf : DotDims.WF S16x512x2048 S16x8192x2048 S16x512x8192 [2] [2] [1] [1] [0] [0]
  dot_S16x512x4096_S16x2048x4096_S16x512x2048_2_2_1_1_0_0_wf : DotDims.WF S16x512x4096 S16x2048x4096 S16x512x2048 [2] [2] [1] [1] [0] [0]

variable [Facts₀]

def dot_S16x512x2048_S16x8192x2048_S16x512x8192_2_2_1_1_0_0 : DotDims S16x512x2048 S16x8192x2048 S16x512x8192 where
  lhsContracting := [2]
  rhsContracting := [2]
  lhsNonContracting := [1]
  rhsNonContracting := [1]
  lhsBatch := [0]
  rhsBatch := [0]
  wf := dot_S16x512x2048_S16x8192x2048_S16x512x8192_2_2_1_1_0_0_wf
def dot_S16x512x4096_S16x2048x4096_S16x512x2048_2_2_1_1_0_0 : DotDims S16x512x4096 S16x2048x4096 S16x512x2048 where
  lhsContracting := [2]
  rhsContracting := [2]
  lhsNonContracting := [1]
  rhsNonContracting := [1]
  lhsBatch := [0]
  rhsBatch := [0]
  wf := dot_S16x512x4096_S16x2048x4096_S16x512x2048_2_2_1_1_0_0_wf

class Facts : Prop extends Facts₀ where

variable [Facts]
-- ==== Proof.KData.lean ====
/-
  The proof data of the kernel's one pipelined region, for any float instance.

  The region walks a grid of 16 × 32 points (expert e, tile k of the intermediate axis). At a point the body
  finds the expert's token block x (512 × 2048), one 128-row tile of the gate weights and one of the up weights
  (both tiles of ONE array, the stacked gate/up weights: two windows on it), and one 128-column tile of the down
  weights. It keeps a 512 × 2048 accumulator in scratch: cleared at k = 0, the tile's contribution added at every
  k, copied to the output block at k = 31. What the scratch holds after each point is therefore a recursion on
  the point (scAt); the output window's staging buffer holds the reshaped accumulator at the points k = 31 and is
  left untouched elsewhere.
-/
import proofs.«181277_j8916352106544_1_alg».proof.Proof.Gen.Kernel.Launch
import proofs.«181277_j8916352106544_1_alg».proof.Proof.Gen.Kernel.Skeleton
import proofs.«181277_j8916352106544_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core c's buffers at launch. -/
abbrev W0 (c : Dev nD) : Valuation τ sig (Elt F) := fun b => m (c, b)
/-- After the one host operation before the region (the token array reshaped to expert × token × hidden). -/
abbrev W1 (c : Dev nD) : Valuation τ sig (Elt F) := StableHlo.after hostOps0 (W0 m c)
/-- The same read at a TensorCore reference. -/
abbrev V1 (c : Dev nD) (b : Ref sig .tc) : Buf (Elt F) ((c : Thread nD τ).loc b) := W1 m c (Proc.devRef .tc b)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The four input blocks at a point, at their literal types. -/
abbrev xblk (c : Dev nD) (t : Fin cfg0.N) : Vec F S1x512x2048 .f32 := iblk m c 0 t
abbrev gblk (c : Dev nD) (t : Fin cfg0.N) : Vec F S1x128x2048 .f32 := iblk m c 1 t
abbrev ublk (c : Dev nD) (t : Fin cfg0.N) : Vec F S1x128x2048 .f32 := iblk m c 2 t
abbrev dblk (c : Dev nD) (t : Fin cfg0.N) : Vec F S1x2048x128 .f32 := iblk m c 3 t

/-! ## The accumulator, point by point -/

/-- What the scratch accumulator holds after the body at position n: the tile's contribution added to zero at
    the first tile of an expert (n ≡ 0 mod 32), to what the point before left elsewhere. -/
def scAt (c : Dev nD) : (n : ℕ) → n < cfg0.N → Vec F S512x2048 .f32
  | 0, hn => k0_pay2 (xblk m c ⟨0, hn⟩) (gblk m c ⟨0, hn⟩) (ublk m c ⟨0, hn⟩) (dblk m c ⟨0, hn⟩) (k0_pay1 (F := F))
  | n + 1, hn =>
    if (n + 1) % 32 = 0 then
      k0_pay2 (xblk m c ⟨n + 1, hn⟩) (gblk m c ⟨n + 1, hn⟩) (ublk m c ⟨n + 1, hn⟩) (dblk m c ⟨n + 1, hn⟩) (k0_pay1 (F := F))
    else
      k0_pay2 (xblk m c ⟨n + 1, hn⟩) (gblk m c ⟨n + 1, hn⟩) (ublk m c ⟨n + 1, hn⟩) (dblk m c ⟨n + 1, hn⟩) (scAt c n (Nat.lt_of_succ_lt hn))

/-- At the first tile of an expert the accumulator starts from zero. -/
theorem scAt_first (c : Dev nD) (t : Fin cfg0.N) (h0 : t.val % 32 = 0) :
    scAt m c t.val t.isLt = k0_pay2 (xblk m c t) (gblk m c t) (ublk m c t) (dblk m c t) (k0_pay1 (F := F)) := by
  obtain ⟨n, hn⟩ := t
  cases n with
  | zero => rfl
  | succ n => exact (if_pos h0).trans rfl

/-- Elsewhere it adds to what the point before left. -/
theorem scAt_next (c : Dev nD) (t : Fin cfg0.N) (h0 : ¬ t.val % 32 = 0) :
    scAt m c t.val t.isLt = k0_pay2 (xblk m c t) (gblk m c t) (ublk m c t) (dblk m c t)
      (scAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The scratch and the invariant -/

/-- The scratch operand: a whole scoped buffer of the kernel's own. -/
abbrev scM : Memref sig .tc .vmem S512x2048 .f32 := Memref.whole cc0_scratch0

/-- The region invariant before position n: the scratch at anything before the first point, afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare (scAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (scAt m c n hn) := rfl

theorem PhiS_pos (c : Dev nD) (n : ℕ) (h : n ≤ cfg0.N) (hz : n ≠ 0) :
    PhiS m c n h = owns (c : Thread nD τ) scM fullShare (scAt m c (n - 1) (by omega)) := by
  cases n with
  | zero => exact absurd rfl hz
  | succ n => rfl

/-! ## The proof data -/

/-- The proof data on core c: the arrays as the region finds them; after the body each input's buffer at its
    block, the output's at the reshaped accumulator; the scratch tracked by the invariant; nothing owed. The stacked
    gate/up weights are read through two windows, each holding one half of the array's read share. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (scAt m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat m c).A w = V1 m c (Pipeline.arrRef spec0 w) := by
  dsimp only [dat]

theorem Phi_castSucc (c : Dev nD) (t : Fin cfg0.N) :
    (dat m c).Φ t.castSucc = PhiS m c t.val (Nat.le_of_lt t.isLt) := by
  dsimp only [dat]; simp only [Fin.coe_castSucc]

theorem Phi_succ (c : Dev nD) (t : Fin cfg0.N) :
    (dat m c).Φ t.succ = owns (c : Thread nD τ) scM fullShare (scAt m c t.val t.isLt) := rfl

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = k0_pay3 (scAt m c t.val t.isLt) := by dsimp only [dat]

/-- Each input's current staging buffer holds its block at every point, fetched there or not: the body leaves
    the block in place, and an unfetched point has the block index of the point before. -/
theorem before_0 (c : Dev nD) (t : Fin cfg0.N) (d) : (dat m c).before 0 t d = iblk m c 0 t :=
  ((dat m c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat m c).before 2 t d = iblk m c 2 t :=
  ((dat m c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat m c).before 3 t d = iblk m c 3 t :=
  ((dat m c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

end Cert.Kernel.Hand

end
-- ==== Proof.KBody.lean ====
/-
  The body obligation of the kernel's one pipelined region, for any float instance.

  At a grid point (expert e, tile k) the body reads the expert's token block, one tile each of the gate, up and down
  weights, and the accumulator it keeps in scratch. Two conditionals on k split the points into three cases: at the
  first tile (k = 0) the accumulator is cleared and the tile's contribution added to the zeros; at a tile in between
  the contribution is added to what the point before left; at the last tile (k = 31) it is added likewise and the sum,
  reshaped, is copied to the output block. Every access is to a whole buffer, so what a buffer reads after a store is
  the stored value, and a load of the accumulator after its store reads that value. The two conditions are decided
  over the 512 points in closed form (k = 0 is t % 32 = 0, k = 31 is t % 32 = 31), as is where the output window is
  idle: everywhere but at the last tiles, and there only is it written back.
-/
import proofs.«181277_j8916352106544_1_alg».proof.Proof.KData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The two conditionals of the body, over the grid -/

/-- The first conditional (clear the accumulator): taken at the first tile of an expert. -/
abbrev cond0 (i : grid0.Coords) : Prop :=
  (Scalar.cmpi .ne (Scalar.extui (Scalar.cmpi .eq (BitVec.ofNat 32 (i 1).val) 0#32)) 0#32) = 1#1
theorem hcond0 : ∀ t : Fin cfg0.N, cond0 (grid0.coords t) ↔ t.val % 32 = 0 :=
  (by decide +kernel : ∀ t : Fin grid0.N, cond0 (grid0.coords t) ↔ t.val % 32 = 0)

/-- The second conditional (copy the accumulator out): taken at the last tile of an expert. -/
abbrev cond1 (i : grid0.Coords) : Prop := k0_cond2 i = 1#1
theorem hcond1 : ∀ t : Fin cfg0.N, cond1 (grid0.coords t) ↔ t.val % 32 = 31 :=
  (by decide +kernel : ∀ t : Fin grid0.N, cond1 (grid0.coords t) ↔ t.val % 32 = 31)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- The output window is idle, and not written back, wherever the second conditional is not taken; live where it is. -/
theorem idle_4 : ∀ t : Fin cfg0.N, ¬cond1 (grid0.coords t) → cfg0.idle 4 (grid0.coords t) = true := by decide +kernel
theorem noFlush_4 : ∀ t : Fin cfg0.N, ¬cond1 (grid0.coords t) → (cfg0.win 4).flush t = false := by decide +kernel
theorem live_4 : ∀ t : Fin cfg0.N, cond1 (grid0.coords t) → cfg0.idle 4 (grid0.coords t) = false := by decide +kernel

/-! ## Whole-buffer loads and stores -/

theorem zeros2 : (![0, 0] : Fin 2 → ℕ) = fun _ => 0 := by funext a; fin_cases a <;> rfl
theorem zeros3 : (![0, 0, 0] : Fin 3 → ℕ) = fun _ => 0 := by funext a; fin_cases a <;> rfl

/-- A load of a whole buffer through the full rectangle at zero offsets reads what the buffer holds. -/
theorem load_whole {sp : Space} {S : Shape} {e : EltTy} (M : Memref sig .tc sp S e) (hM : M.IsWhole)
    {off : Fin S.rank → ℕ} (h : off = fun _ => 0) (inb : ∀ a, off a + S.size a ≤ S.size a) (X : S.Idx → Elt F e) :
    M.view.readAt (Elt F) (Rect.unit off S.size inb).toLoadRect (hM.unread X) = X := by
  rw [View.readAt_eq_ld, hM.read_unread, View.ld_unit_zero h inb]

/-- A store through the full rectangle at zero offsets, made last, leaves its payload whatever was there. -/
theorem store_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-! ## The body's three cases, on any whole staging memrefs -/

set_option maxHeartbeats 1000000 in
/-- At the first tile of an expert the first conditional is taken and the second is not: the accumulator, found at
    anything, is cleared and then left at the tile's contribution added to zero; every window's buffer is left as
    found. -/
theorem runA (c : Dev nD) (i : grid0.Coords)
    (arg2 : Memref sig .tc .vmem S1x512x2048 .f32) (harg2 : arg2.IsWhole)
    (arg3 : Memref sig .tc .vmem S1x128x2048 .f32) (harg3 : arg3.IsWhole)
    (arg4 : Memref sig .tc .vmem S1x128x2048 .f32) (harg4 : arg4.IsWhole)
    (arg5 : Memref sig .tc .vmem S1x2048x128 .f32) (harg5 : arg5.IsWhole)
    (arg6 : Memref sig .tc .vmem S1x512x2048 .f32) (harg6 : arg6.IsWhole)
    (arg7 : Memref sig .tc .vmem S512x2048 .f32) (harg7 : arg7.IsWhole)
    (hc0 : cond0 i) (hc1 : ¬cond1 i)
    (x : Vec F S1x512x2048 .f32) (g u : Vec F S1x128x2048 .f32) (d : Vec F S1x2048x128 .f32)
    (xo : Vec F S1x512x2048 .f32) (E : Set ℕ) (K : PUnit → sProp 𝕄) :
    iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare xo ∗ (∃ xs, owns (c : Thread nD τ) arg7 fullShare xs)
        ∗ (iprop(owns (c : Thread nD τ) arg2 fullShare x ∗ owns (c : Thread nD τ) arg3 fullShare g ∗ owns (c : Thread nD τ) arg4 fullShare u
            ∗ owns (c : Thread nD τ) arg5 fullShare d ∗ owns (c : Thread nD τ) arg6 fullShare xo
            ∗ owns (c : Thread nD τ) arg7 fullShare (k0_pay2 x g u d (k0_pay1 (F := F)))) -∗ K ⟨⟩))
      ⊢ wp frame (wpE (defs₀ (F := F)) Variants.none c none) E
          (cc0__moe_kernel i arg2 harg2 arg3 harg3 arg4 harg4 arg5 harg5 arg6 harg6 arg7 harg7) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%xs, %fs, %hfs, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  -- the last store's payload, its accumulator operand the zeros the first store left
  rw [store_whole _ _ zeros2, load_whole arg2 harg2 zeros3, load_whole arg3 harg3 zeros3, load_whole arg4 harg4 zeros3,
    load_whole arg5 harg5 zeros3]
  unfold runA.sl.v22 runA.sl.HS_1
  rw [View.readCov_unit_zero _ zeros2]

set_option maxHeartbeats 1000000 in
/-- Between the first and the last tile of an expert neither conditional is taken: the accumulator, found at xs,
    is left at the tile's contribution added to xs; every window's buffer is left as found. -/
theorem runB (c : Dev nD) (i : grid0.Coords)
    (arg2 : Memref sig .tc .vmem S1x512x2048 .f32) (harg2 : arg2.IsWhole)
    (arg3 : Memref sig .tc .vmem S1x128x2048 .f32) (harg3 : arg3.IsWhole)
    (arg4 : Memref sig .tc .vmem S1x128x2048 .f32) (harg4 : arg4.IsWhole)
    (arg5 : Memref sig .tc .vmem S1x2048x128 .f32) (harg5 : arg5.IsWhole)
    (arg6 : Memref sig .tc .vmem S1x512x2048 .f32) (harg6 : arg6.IsWhole)
    (arg7 : Memref sig .tc .vmem S512x2048 .f32) (harg7 : arg7.IsWhole)
    (hc0 : ¬cond0 i) (hc1 : ¬cond1 i)
    (x : Vec F S1x512x2048 .f32) (g u : Vec F S1x128x2048 .f32) (d : Vec F S1x2048x128 .f32)
    (xo : Vec F S1x512x2048 .f32) (xs : Vec F S512x2048 .f32) (E : Set ℕ) (K : PUnit → sProp 𝕄) :
    iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare xo ∗ owns (c : Thread nD τ) arg7 fullShare xs
        ∗ (iprop(owns (c : Thread nD τ) arg2 fullShare x ∗ owns (c : Thread nD τ) arg3 fullShare g ∗ owns (c : Thread nD τ) arg4 fullShare u
            ∗ owns (c : Thread nD τ) arg5 fullShare d ∗ owns (c : Thread nD τ) arg6 fullShare xo
            ∗ owns (c : Thread nD τ) arg7 fullShare (k0_pay2 x g u d xs)) -∗ K ⟨⟩))
      ⊢ wp frame (wpE (defs₀ (F := F)) Variants.none c none) E
          (cc0__moe_kernel i arg2 harg2 arg3 harg3 arg4 harg4 arg5 harg5 arg6 harg6 arg7 harg7) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  rw [store_whole _ _ zeros2, load_whole arg2 harg2 zeros3, load_whole arg3 harg3 zeros3, load_whole arg4 harg4 zeros3,
    load_whole arg5 harg5 zeros3, load_whole arg7 harg7 zeros2]

set_option maxHeartbeats 1000000 in
/-- At the last tile of an expert the second conditional is taken and the first is not: the accumulator, found at
    xs, is left at the tile's contribution added to xs, and the output window's buffer, found at anything, at that
    value reshaped. -/
theorem runC (c : Dev nD) (i : grid0.Coords)
    (arg2 : Memref sig .tc .vmem S1x512x2048 .f32) (harg2 : arg2.IsWhole)
    (arg3 : Memref sig .tc .vmem S1x128x2048 .f32) (harg3 : arg3.IsWhole)
    (arg4 : Memref sig .tc .vmem S1x128x2048 .f32) (harg4 : arg4.IsWhole)
    (arg5 : Memref sig .tc .vmem S1x2048x128 .f32) (harg5 : arg5.IsWhole)
    (arg6 : Memref sig .tc .vmem S1x512x2048 .f32) (harg6 : arg6.IsWhole)
    (arg7 : Memref sig .tc .vmem S512x2048 .f32) (harg7 : arg7.IsWhole)
    (hc0 : ¬cond0 i) (hc1 : cond1 i)
    (x : Vec F S1x512x2048 .f32) (g u : Vec F S1x128x2048 .f32) (d : Vec F S1x2048x128 .f32)
    (xs : Vec F S512x2048 .f32) (E : Set ℕ) (K : PUnit → sProp 𝕄) :
    iprop(owns (c : Thread nD τ) arg2 fullShare x ∗ owns (c : Thread nD τ) arg3 fullShare g ∗ owns (c : Thread nD τ) arg4 fullShare u
        ∗ owns (c : Thread nD τ) arg5 fullShare d ∗ (∃ xo, owns (c : Thread nD τ) arg6 fullShare xo) ∗ owns (c : Thread nD τ) arg7 fullShare xs
        ∗ (iprop(owns (c : Thread nD τ) arg2 fullShare x ∗ owns (c : Thread nD τ) arg3 fullShare g ∗ owns (c : Thread nD τ) arg4 fullShare u
            ∗ owns (c : Thread nD τ) arg5 fullShare d ∗ owns (c : Thread nD τ) arg6 fullShare (k0_pay3 (k0_pay2 x g u d xs))
            ∗ owns (c : Thread nD τ) arg7 fullShare (k0_pay2 x g u d xs)) -∗ K ⟨⟩))
      ⊢ wp frame (wpE (defs₀ (F := F)) Variants.none c none) E
          (cc0__moe_kernel i arg2 harg2 arg3 harg3 arg4 harg4 arg5 harg5 arg6 harg6 arg7 harg7) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%xo, %f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  -- what the accumulator's one store wrote
  have hacc : runC.sl.HS_1 c arg2 harg2 arg3 harg3 arg4 harg4 arg5 harg5 arg7 harg7 x g u d xs
      = [(⟨Rect.unit ![0, 0] S512x2048.size inb_S512x2048_S512x2048_0_0, k0_pay2 x g u d xs⟩ : View.Piece (Elt F) S512x2048 .f32)] := by
    unfold runC.sl.HS_1
    rw [load_whole arg2 harg2 zeros3, load_whole arg3 harg3 zeros3, load_whole arg4 harg4 zeros3,
      load_whole arg5 harg5 zeros3, load_whole arg7 harg7 zeros2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    -- the output's store wrote the accumulator as read back after its store
    rw [store_whole _ _ zeros3]
    unfold runC.sl.v30
    rw [hacc, View.readCov_unit_zero _ zeros2]
  iexists _; isplitr
  swap; · iexact HS
  ipureintro
  rw [hacc, store_whole _ _ zeros2]

/-! ## The body at a point -/

/-- Each window's current staging memref at a point, as the pipeline passes it, and its wholeness. -/
abbrev ms0 (t : Fin cfg0.N) : Memref sig .tc .vmem S1x512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x2048 .f32 := win0_4.stage (cfg0.slots t 4)
abbrev hs4 (t : Fin cfg0.N) : (ms4 t).IsWhole := hstage0_4 ((cfg0.slots t 4).cast nbuf0_4)

/-- What the body is called with at a point: the invariant, what the core owes, each window's buffer at what it
    then holds. -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d)))

/-- What it returns. -/
def bodyPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t
    ∗ (dat m c).leavesExact 3 t ∗ (dat m c).leavesExact 4 t)

set_option maxHeartbeats 4000000 in
/-- The body at any point. The inputs' buffers hold their blocks; the point's position within its expert's run of
    32 tiles says which of the three cases it is in; the invariant hands the body the accumulator at what the point
    before left (at anything before the first point) and takes it back at this point's value; the output window's
    buffer is handed back as found except at the last tile, where it holds the accumulator reshaped. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).owesAt () t.succ = (dat m c).owesAt () t.castSucc from rfl]
  rw [Phi_succ, Phi_castSucc]
  have hN : t.val < 512 := lt_of_lt_of_eq t.isLt (show cfg0.N = 512 from N_0)
  rw [show (dat m c).leavesExact 0 t = owns (c : Thread nD τ) (ms0 t) fullShare ((dat m c).after 0 t) from by
    unfold Dat.leavesExact; rw [live_0 t], after_0]
  rw [show (dat m c).leavesExact 1 t = owns (c : Thread nD τ) (ms1 t) fullShare ((dat m c).after 1 t) from by
    unfold Dat.leavesExact; rw [live_1 t], after_1]
  rw [show (dat m c).leavesExact 2 t = owns (c : Thread nD τ) (ms2 t) fullShare ((dat m c).after 2 t) from by
    unfold Dat.leavesExact; rw [live_2 t], after_2]
  rw [show (dat m c).leavesExact 3 t = owns (c : Thread nD τ) (ms3 t) fullShare ((dat m c).after 3 t) from by
    unfold Dat.leavesExact; rw [live_3 t], after_3]
  by_cases h0 : t.val % 32 = 0
  · -- the first tile of an expert
    have hc0 : cond0 (grid0.coords t) := (hcond0 t).mpr h0
    have hc1 : ¬cond1 (grid0.coords t) := fun h => by have := (hcond1 t).mp h; omega
    rw [Dat.leavesExact_idle (dat m c) 4 t (idle_4 t hc1) (noFlush_4 t hc1)]
    rw [scAt_first m c t h0]
    by_cases hz : t.val = 0
    · rw [PhiS_zero m c _ _ hz]
      iintro ⟨HS, Ho, ⟨%d0, H0⟩, ⟨%d1, H1⟩, ⟨%d2, H2⟩, ⟨%d3, H3⟩, ⟨%d4, H4⟩⟩
      iapply (runA c (grid0.coords t) _ _ _ _ _ _ _ _ _ _ _ _ hc0 hc1 (xblk m c t) (gblk m c t) (ublk m c t) (dblk m c t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
    · rw [PhiS_pos m c _ _ hz]
      iintro ⟨HS, Ho, ⟨%d0, H0⟩, ⟨%d1, H1⟩, ⟨%d2, H2⟩, ⟨%d3, H3⟩, ⟨%d4, H4⟩⟩
      iapply (runA c (grid0.coords t) _ _ _ _ _ _ _ _ _ _ _ _ hc0 hc1 (xblk m c t) (gblk m c t) (ublk m c t) (dblk m c t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
  · have hc0 : ¬cond0 (grid0.coords t) := fun h => h0 ((hcond0 t).mp h)
    have hz : t.val ≠ 0 := fun h => h0 (by rw [h])
    rw [scAt_next m c t h0, PhiS_pos m c _ _ hz]
    by_cases h1 : t.val % 32 = 31
    · -- the last tile of an expert
      have hc1 : cond1 (grid0.coords t) := (hcond1 t).mpr h1
      rw [show (dat m c).leavesExact 4 t = owns (c : Thread nD τ) (ms4 t) fullShare ((dat m c).after 4 t) from by
        unfold Dat.leavesExact; rw [live_4 t hc1], after_4, scAt_next m c t h0]
      iintro ⟨HS, Ho, ⟨%d0, H0⟩, ⟨%d1, H1⟩, ⟨%d2, H2⟩, ⟨%d3, H3⟩, ⟨%d4, H4⟩⟩
      iapply (runC c (grid0.coords t) _ _ _ _ _ _ _ _ _ _ _ _ hc0 hc1 (xblk m c t) (gblk m c t) (ublk m c t) (dblk m c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · -- a tile in between
      have hc1 : ¬cond1 (grid0.coords t) := fun h => h1 ((hcond1 t).mp h)
      rw [Dat.leavesExact_idle (dat m c) 4 t (idle_4 t hc1) (noFlush_4 t hc1)]
      iintro ⟨HS, Ho, ⟨%d0, H0⟩, ⟨%d1, H1⟩, ⟨%d2, H2⟩, ⟨%d3, H3⟩, ⟨%d4, H4⟩⟩
      iapply (runB c (grid0.coords t) _ _ _ _ _ _ _ _ _ _ _ _ hc0 hc1 (xblk m c t) (gblk m c t) (ublk m c t) (dblk m c t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The body obligation at every grid point: from the invariant and each window's current staging buffer at what
    the proof data say it holds, the kernel body runs to the invariant at the next point and each buffer at what
    the proof data say it leaves. -/
theorem body_obligation (c : Dev nD) : BodyObligation (dat (F := F) m c) (defs₀ (F := F)) Variants.none () Set.univ := fun t => by
  rw [bigSep_W0, bigSep_W0]
  exact sound_body m c t

end Cert.Kernel.Hand

end
-- ==== Proof.KLaunch.lean ====
import proofs.«181277_j8916352106544_1_alg».proof.Proof.KBody
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- Core c's buffers when the region is left: the output array at what the pipeline's write-backs leave in it,
    every other buffer as the region found it (the region writes nothing else). -/
def W2 (c : Dev nD) : Valuation τ sig (Elt F) :=
  Function.update (W1 m c) (Proc.devRef .tc main_v1) ((dat m c).arrAt 4 cfg0.N)

/-- After the one host operation behind the region (the result reshaped to the caller's token-major layout). -/
abbrev W3 (c : Dev nD) : Valuation τ sig (Elt F) := StableHlo.after hostOps1 (W2 m c)

/-! ## The six arrays of @main on a core, one by one -/

/-- A core's unscoped buffers are @main's three arguments and three values. -/
theorem unscopedBufs_six (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_v0) ↦{fullShare} V main_v0)
          ∗ (((c : Thread nD τ).loc main_v1) ↦{fullShare} V main_v1) ∗ (((c : Thread nD τ).loc main_v2) ↦{fullShare} V main_v2)) := by
  unfold unscopedBufs
  exact bigSep_eq_bigSepL_of_eq [main_arg0, main_arg1, main_arg2, main_v0, main_v1, main_v2] (by decide) (by decide) _

/-- The region's arrays window by window: the token block and the down weights whole, the stacked gate/up weights
    once at each half of the read share, the output whole. -/
theorem arrays_five (c : Dev nD) (G : (w : Fin cfg0.W) → Buf (Elt F) ((cfg0.win w).arr.view.loc (c : Thread nD τ))) :
    ((dat m c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v1) ↦{fullShare} G 4)) := by
  unfold Dat.arrays
  rw [bigSep_W0]
  rw [(arr_whole0 0).set_eq_univ, (arr_whole0 1).set_eq_univ, (arr_whole0 3).set_eq_univ, (arr_whole0 4).set_eq_univ]
  rfl

/-! ## The region's entry and exit on the arrays -/

/-- The region leaves the output array at what the write-backs made of it, -/
theorem W2_out (c : Dev nD) : W2 m c (Proc.devRef .tc main_v1) = (dat m c).arrAt 4 cfg0.N := by
  unfold W2; exact Function.update_self _ _ _
/-- and every other buffer as it found it. -/
theorem W2_of_ne (c : Dev nD) (b : Ref sig .tc) (h : b ≠ main_v1) :
    W2 m c (Proc.devRef .tc b) = W1 m c (Proc.devRef .tc b) := by
  unfold W2; exact Function.update_of_ne (StableHlo.devRef_ne_of_ne h) _ _

/-- An input window's array is never written: at every position it holds what the region found. -/
theorem arrAt_in0 (c : Dev nD) (n : ℕ) : (dat m c).arrAt 0 n = V1 m c main_v0 := ((dat m c).arrAt_in 0 rfl n).trans (A_eq m c 0)
theorem arrAt_in1 (c : Dev nD) (n : ℕ) : (dat m c).arrAt 1 n = V1 m c main_arg1 := ((dat m c).arrAt_in 1 rfl n).trans (A_eq m c 1)
theorem arrAt_in2 (c : Dev nD) (n : ℕ) : (dat m c).arrAt 2 n = V1 m c main_arg1 := ((dat m c).arrAt_in 2 rfl n).trans (A_eq m c 2)
theorem arrAt_in3 (c : Dev nD) (n : ℕ) : (dat m c).arrAt 3 n = V1 m c main_arg2 := ((dat m c).arrAt_in 3 rfl n).trans (A_eq m c 3)

/-- ENTRY. A core's six arrays at the entry contents are the region's arrays at the proof data's entry contents —
    the stacked gate/up weights' full share dealt in halves to the two windows on it — and the two arrays the
    region bypasses. -/
theorem entry_split (c : Dev nD) :
    (StableHlo.held (c : Thread nD τ) (Pipeline.ucRefs τ sig) (W1 m c) : sProp 𝕄)
      ⊢ iprop((dat m c).arrays ((dat m c).arrAt · 0)
          ∗ Pipeline.unscopedRest (Ix := Unit) (Name := ℕ) (U := UR sig nD τ) (Lvl := ℕ) spec0 c (V1 m c)) := by
  rw [← Pipeline.unscopedBufs_held c (W1 m c), unscopedBufs_six, arrays_five, unscopedRest0_eq]
  iintro ⟨Ha0, Ha1, Ha2, Hv0, Hv1, Hv2⟩
  ihave H := (pointsTo_share (PosShare.mem_left_op_right fullShare)).1 $$ Ha1
  icases H with ⟨Hl, Hr⟩
  isplitr [Ha0 Hv2]
  · isplitl [Hv0]; · iexact Hv0
    isplitl [Hl]; · iexact Hl
    isplitl [Hr]; · iexact Hr
    isplitl [Ha2]; · iexact Ha2
    iexact Hv1
  isplitl [Ha0]; · iexact Ha0
  iexact Hv2

/-- EXIT. The region's arrays at their last contents — the inputs as found, so the two halves of the stacked
    weights rejoin; the output at its write-backs — and the two bypassing arrays are the core's six arrays at
    the exit contents. -/
theorem exit_join (c : Dev nD) :
    iprop((dat m c).arrays ((dat m c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held c (W2 m c), unscopedBufs_six, arrays_five, unscopedRest0_eq]
  rw [arrAt_in0, arrAt_in1, arrAt_in2, arrAt_in3, W2_out,
    W2_of_ne m c main_arg0 (by decide), W2_of_ne m c main_arg1 (by decide), W2_of_ne m c main_arg2 (by decide),
    W2_of_ne m c main_v0 (by decide), W2_of_ne m c main_v2 (by decide)]
  iintro ⟨⟨Hv0, Hl, Hr, Ha2, Hv1⟩, Ha0, Hv2⟩
  ihave Ha1 := (pointsTo_share (PosShare.mem_left_op_right fullShare)).2 $$ [Hl Hr]
  · isplitl [Hl] <;> iassumption
  isplitl [Ha0]; · iexact Ha0
  isplitl [Ha1]; · iexact Ha1
  isplitl [Ha2]; · iexact Ha2
  isplitl [Hv0]; · iexact Hv0
  isplitl [Hv1]; · iexact Hv1
  iexact Hv2

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- The core's generator register at some state: the kernel draws no random number, so it rides beside the buffers. -/
abbrev Gr (c : Dev nD) : sProp 𝕄 := iprop(∃ r, prngReg c r)
/-- The core owing nothing, whatever pairs it has recorded. -/
abbrev Owe0 (c : Dev nD) : sProp 𝕄 := iprop(∃ W, owes (c : Thread nD τ) (0 : CellTallies nD τ sig Unit) W)
/-- What rides beside the buffers through every segment. -/
abbrev R (c : Dev nD) : sProp 𝕄 := iprop(Gr c ∗ Owe0 c)
/-- A reshape before or behind the region as a segment over the core's six arrays from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The last thread state beside the core owing nothing: the six arrays at W3, the generator register. -/
abbrev Tₙ (c : Dev nD) : sProp 𝕄 := iprop(StableHlo.held (c : Thread nD τ) (Pipeline.ucRefs τ sig) (W3 m c) ∗ Gr c)

/-! ## The region as a segment -/

/-- The proof data owe nothing at any position and bound the recorded pairs by nothing: a core owing nothing is
    the pipeline's account of what it owes there, -/
theorem owe_in (c : Dev nD) (t : Fin (cfg0.N + 1)) : Owe0 (F := F) c ⊢ (dat m c).owesAt () t := by
  unfold Pipeline.Dat.owesAt Pipeline.owesWithin
  iintro ⟨%W, HO⟩
  iexists W
  isplitr; · ipureintro; exact fun _ _ => Or.inl trivial
  iexact HO
/-- and back. -/
theorem owe_out (c : Dev nD) (t : Fin (cfg0.N + 1)) : (dat m c).owesAt () t ⊢ Owe0 (F := F) c := by
  unfold Pipeline.Dat.owesAt Pipeline.owesWithin
  iintro ⟨%W, -, HO⟩
  iexists W; iexact HO

/-- The scratch accumulator is the core's one scoped buffer that no window stages. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- Behind the last point the invariant is the accumulator at the last point's sum. -/
theorem Phi_last (c : Dev nD) :
    (dat m c).Φ (Fin.last cfg0.N) = owns (c : Thread nD τ) scM fullShare (scAt m c (cfg0.N - 1) (by decide)) :=
  PhiS_pos m c cfg0.N (Nat.le_refl _) (by decide)

/-- The kernel prefetches no table. -/
theorem no_tables (c : Dev nD) (V) :
    (BI.emp : sProp 𝕄) ⊢ Pipeline.prefHeld (Ix := Unit) (Name := ℕ) (U := UR sig nD τ) (Lvl := ℕ) (pcfgs (F := F) 0).pre c (fun _ => fullShare) V := by
  unfold Pipeline.prefHeld
  rw [show (Finset.univ : Finset (Fin 0)) = ∅ from rfl, BI.bigSep_empty]

set_option backward.isDefEq.respectTransparency.types false in
/-- THE REGION over the thread state: entered from the six arrays at W1, left at W2. The arrays go in by
    entry_split and come back by exit_join; the scratch goes into the invariant and comes back at contents
    forgotten; the generator register and the reshaped pair bypass; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop(Pipeline.unscopedRest (Ix := Unit) (Name := ℕ) (U := UR sig nD τ) (Lvl := ℕ) spec0 c (V1 m c) ∗ Gr c)
  hentry c := by
    rw [Pipeline.ownSems0_none]
    iintro ⟨⟨Hsix, Hg, HO⟩, -, -⟩
    ihave Hsp := entry_split m c $$ Hsix
    icases Hsp with ⟨Harr, Hby⟩
    imodintro
    isplitl [Harr]; · iexact Harr
    isplitr; · iapply no_tables c; iempintro
    isplitl [HO]; · iapply owe_in m c 0; iexact HO
    isplitr; · iempintro
    isplitl [Hby]; · iexact Hby
    iexact Hg
  hin c := by
    rw [show (pdats m 0 c).Φ 0 = iprop(∃ d, owns (c : Thread nD τ) scM fullShare d) from rfl]
    iintro ⟨-, -, Hs⟩
    iapply (Entails.of_eq (scopedRest_scratch c))
    iexact Hs
  hout c := by
    rw [Pipeline.ownSems0_none, show (pdats m 0 c).Φ (Fin.last _) = (dat m c).Φ (Fin.last cfg0.N) from rfl, Phi_last]
    iintro Hs
    isplitr; · iempintro
    isplitr; · iempintro
    iapply (Entails.of_eq (scopedRest_scratch c).symm)
    iexists _; iexact Hs
  hexit c := by
    iintro ⟨Harr, HO, -, Hby, Hg⟩
    imodintro
    isplitl [Harr Hby]
    · iapply exit_join m c
      isplitl [Harr]; · iexact Harr
      iexact Hby
    isplitl [Hg]; · iexact Hg
    iapply owe_out m c (Fin.last cfg0.N); iexact HO

/-! ## @main as segments, and the launch -/

/-- @main's three segments: the tokens reshaped, the region, the result reshaped back. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

/-- @main is the run of the three segments. -/
theorem main_run (c : Dev nD) : main (F := F) c = Pipeline.Seg.run (segs m) :=
  main_segs adm (pdats m) () 𝒱₀ L lv _ _ (reg0 m) rfl rfl c

/-- The last thread state read against a final state: every one of the core's six arrays holds W3 of it. -/
theorem last_read (c : Dev nD) (s' : Phys nD τ sig (Elt F)) :
    iprop(Tₙ m c ∗ SI s') ⊢ (|={Set.univ}=> iprop(⌜∀ b ∈ Pipeline.ucRefs τ sig, s'.mem.mem ((c : Thread nD τ).1, b) = W3 m c b⌝ ∗ SI s') : sProp 𝕄) := by
  iintro ⟨⟨Hsix, -⟩, HSI⟩
  unfold StableHlo.held
  imodintro
  iapply (pointsTo_read_all (Pipeline.ucRefs τ sig) (fun b => ((c : Thread nD τ).1, b)) (W3 m c) s')
  isplitl [Hsix]; · iexact Hsix
  iexact HSI

set_option backward.isDefEq.respectTransparency.types false in
/-- THE RUN. From any memory with zero counters every weakly fair execution of @main terminates without a fault,
    and in every final state each unscoped buffer of core c holds W3 m c of it. -/
theorem run_main : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ iprop(Tₙ m c ∗ Owe0 c)
      iintro ⟨Hsix, Hg, HO⟩
      isplitr [HO]
      · isplitl [Hsix]; · iexact Hsix
        iexact Hg
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hsix, -, HO, -, Hreg, -⟩, -⟩
      imodintro
      isplitl [Hsix]; · iexact Hsix
      isplitl [Hreg]; · iexists _; iexact Hreg
      iexists ∅; iexact HO)
    (QY := fun c s => ∀ b ∈ Pipeline.ucRefs τ sig, s.mem ((c : Thread nD τ).1, b) = W3 m c b)
    (hfin := last_read m)
    (hQ := fun s h c b hb => h c b hb)

end Cert.Kernel.Hand

end
-- ==== Proof.KFrame.lean ====
import proofs.«181277_j8916352106544_1_alg».proof.Proof.KLaunch
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Neither host operation and no write-back touches an argument: each ends as launched. -/
theorem W3_arg0 (c : Dev nD) : W3 m c (Proc.devRef .tc main_arg0) = m ((c : Thread nD τ).loc main_arg0) := by
  dsimp only [W3, W2, W1, W0, hostOps0, hostOps1]
  after_results
  rw [Function.update_of_ne (StableHlo.devRef_ne_of_ne (by decide)), StableHlo.reshape_result_ne]
  decide
theorem W3_arg1 (c : Dev nD) : W3 m c (Proc.devRef .tc main_arg1) = m ((c : Thread nD τ).loc main_arg1) := by
  dsimp only [W3, W2, W1, W0, hostOps0, hostOps1]
  after_results
  rw [Function.update_of_ne (StableHlo.devRef_ne_of_ne (by decide)), StableHlo.reshape_result_ne]
  decide
theorem W3_arg2 (c : Dev nD) : W3 m c (Proc.devRef .tc main_arg2) = m ((c : Thread nD τ).loc main_arg2) := by
  dsimp only [W3, W2, W1, W0, hostOps0, hostOps1]
  after_results
  rw [Function.update_of_ne (StableHlo.devRef_ne_of_ne (by decide)), StableHlo.reshape_result_ne]
  decide

/-- The result buffer is the output array, as the region leaves it, reshaped to tokens × hidden. -/
theorem W3_v2 (c : Dev nD) : W3 m c (Proc.devRef .tc main_v2)
    = shapeCast S8192x2048 ((dat m c).arrAt 4 cfg0.N) shapeCasts_S16x512x2048_S8192x2048 := by
  dsimp only [W3, W2, W1, W0, hostOps0, hostOps1]
  after_results
  rw [Function.update_self]
  rfl

/-- The run, read at the result and the arguments. -/
theorem run_value : θ_run defs (onTc (τ := τ) (main (F := F))) ⟨m, fun _ => 0, ρ⟩ (fun r => ∀ c : Dev nD,
      r.2.mem ((c.tc : Thread nD τ).loc main_v2) = shapeCast S8192x2048 ((dat m c).arrAt 4 cfg0.N) shapeCasts_S16x512x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_v2 m c),
     (h c _ (mem_uc main_arg0 (by decide))).trans (W3_arg0 m c),
     (h c _ (mem_uc main_arg1 (by decide))).trans (W3_arg1 m c),
     (h c _ (mem_uc main_arg2 (by decide))).trans (W3_arg2 m c)⟩) (run_main m ρ)

/-- The frame: the program runs to the end without a fault and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.Kernel.Hand

end
-- ==== Proof.KIData.lean ====
/-
  The proof data of the kernel's one pipelined region, for any float instance.

  The region walks a grid of 16 × 32 points (expert e, tile k of the intermediate axis). At a point the body
  finds the expert's token block x (512 × 2048), one 128-row tile of the gate weights and one of the up weights
  (both tiles of ONE array, the stacked gate/up weights: two windows on it), and one 128-column tile of the down
  weights. It keeps a 512 × 2048 accumulator in scratch: cleared at k = 0, the tile's contribution added at every
  k, copied to the output block at k = 31. What the scratch holds after each point is therefore a recursion on
  the point (scAt); the output window's staging buffer holds the reshaped accumulator at the points k = 31 and is
  left untouched elsewhere.
-/
import proofs.«181277_j8916352106544_1_alg».proof.Proof.Gen.KernelIdeal.Launch
import proofs.«181277_j8916352106544_1_alg».proof.Proof.Gen.KernelIdeal.Skeleton
import proofs.«181277_j8916352106544_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core c's buffers at launch. -/
abbrev W0 (c : Dev nD) : Valuation τ sig (Elt F) := fun b => m (c, b)
/-- After the one host operation before the region (the token array reshaped to expert × token × hidden). -/
abbrev W1 (c : Dev nD) : Valuation τ sig (Elt F) := StableHlo.after hostOps0 (W0 m c)
/-- The same read at a TensorCore reference. -/
abbrev V1 (c : Dev nD) (b : Ref sig .tc) : Buf (Elt F) ((c : Thread nD τ).loc b) := W1 m c (Proc.devRef .tc b)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The four input blocks at a point, at their literal types. -/
abbrev xblk (c : Dev nD) (t : Fin cfg0.N) : Vec F S1x512x2048 .f32 := iblk m c 0 t
abbrev gblk (c : Dev nD) (t : Fin cfg0.N) : Vec F S1x128x2048 .f32 := iblk m c 1 t
abbrev ublk (c : Dev nD) (t : Fin cfg0.N) : Vec F S1x128x2048 .f32 := iblk m c 2 t
abbrev dblk (c : Dev nD) (t : Fin cfg0.N) : Vec F S1x2048x128 .f32 := iblk m c 3 t

/-! ## The accumulator, point by point -/

/-- What the scratch accumulator holds after the body at position n: the tile's contribution added to zero at
    the first tile of an expert (n ≡ 0 mod 32), to what the point before left elsewhere. -/
def scAt (c : Dev nD) : (n : ℕ) → n < cfg0.N → Vec F S512x2048 .f32
  | 0, hn => k0_pay2 (xblk m c ⟨0, hn⟩) (gblk m c ⟨0, hn⟩) (ublk m c ⟨0, hn⟩) (dblk m c ⟨0, hn⟩) (k0_pay1 (F := F))
  | n + 1, hn =>
    if (n + 1) % 32 = 0 then
      k0_pay2 (xblk m c ⟨n + 1, hn⟩) (gblk m c ⟨n + 1, hn⟩) (ublk m c ⟨n + 1, hn⟩) (dblk m c ⟨n + 1, hn⟩) (k0_pay1 (F := F))
    else
      k0_pay2 (xblk m c ⟨n + 1, hn⟩) (gblk m c ⟨n + 1, hn⟩) (ublk m c ⟨n + 1, hn⟩) (dblk m c ⟨n + 1, hn⟩) (scAt c n (Nat.lt_of_succ_lt hn))

/-- At the first tile of an expert the accumulator starts from zero. -/
theorem scAt_first (c : Dev nD) (t : Fin cfg0.N) (h0 : t.val % 32 = 0) :
    scAt m c t.val t.isLt = k0_pay2 (xblk m c t) (gblk m c t) (ublk m c t) (dblk m c t) (k0_pay1 (F := F)) := by
  obtain ⟨n, hn⟩ := t
  cases n with
  | zero => rfl
  | succ n => exact (if_pos h0).trans rfl

/-- Elsewhere it adds to what the point before left. -/
theorem scAt_next (c : Dev nD) (t : Fin cfg0.N) (h0 : ¬ t.val % 32 = 0) :
    scAt m c t.val t.isLt = k0_pay2 (xblk m c t) (gblk m c t) (ublk m c t) (dblk m c t)
      (scAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The scratch and the invariant -/

/-- The scratch operand: a whole scoped buffer of the kernel's own. -/
abbrev scM : Memref sig .tc .vmem S512x2048 .f32 := Memref.whole cc0_scratch0

/-- The region invariant before position n: the scratch at anything before the first point, afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare (scAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (scAt m c n hn) := rfl

theorem PhiS_pos (c : Dev nD) (n : ℕ) (h : n ≤ cfg0.N) (hz : n ≠ 0) :
    PhiS m c n h = owns (c : Thread nD τ) scM fullShare (scAt m c (n - 1) (by omega)) := by
  cases n with
  | zero => exact absurd rfl hz
  | succ n => rfl

/-! ## The proof data -/

/-- The proof data on core c: the arrays as the region finds them; after the body each input's buffer at its
    block, the output's at the reshaped accumulator; the scratch tracked by the invariant; nothing owed. The stacked
    gate/up weights are read through two windows, each holding one half of the array's read share. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (scAt m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat m c).A w = V1 m c (Pipeline.arrRef spec0 w) := by
  dsimp only [dat]

theorem Phi_castSucc (c : Dev nD) (t : Fin cfg0.N) :
    (dat m c).Φ t.castSucc = PhiS m c t.val (Nat.le_of_lt t.isLt) := by
  dsimp only [dat]; simp only [Fin.coe_castSucc]

theorem Phi_succ (c : Dev nD) (t : Fin cfg0.N) :
    (dat m c).Φ t.succ = owns (c : Thread nD τ) scM fullShare (scAt m c t.val t.isLt) := rfl

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = k0_pay3 (scAt m c t.val t.isLt) := by dsimp only [dat]

/-- Each input's current staging buffer holds its block at every point, fetched there or not: the body leaves
    the block in place, and an unfetched point has the block index of the point before. -/
theorem before_0 (c : Dev nD) (t : Fin cfg0.N) (d) : (dat m c).before 0 t d = iblk m c 0 t :=
  ((dat m c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat m c).before 2 t d = iblk m c 2 t :=
  ((dat m c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat m c).before 3 t d = iblk m c 3 t :=
  ((dat m c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

end Cert.KernelIdeal.Hand

end
-- ==== Proof.KIBody.lean ====
/-
  The body obligation of the kernel's one pipelined region, for any float instance.

  At a grid point (expert e, tile k) the body reads the expert's token block, one tile each of the gate, up and down
  weights, and the accumulator it keeps in scratch. Two conditionals on k split the points into three cases: at the
  first tile (k = 0) the accumulator is cleared and the tile's contribution added to the zeros; at a tile in between
  the contribution is added to what the point before left; at the last tile (k = 31) it is added likewise and the sum,
  reshaped, is copied to the output block. Every access is to a whole buffer, so what a buffer reads after a store is
  the stored value, and a load of the accumulator after its store reads that value. The two conditions are decided
  over the 512 points in closed form (k = 0 is t % 32 = 0, k = 31 is t % 32 = 31), as is where the output window is
  idle: everywhere but at the last tiles, and there only is it written back.
-/
import proofs.«181277_j8916352106544_1_alg».proof.Proof.KIData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The two conditionals of the body, over the grid -/

/-- The first conditional (clear the accumulator): taken at the first tile of an expert. -/
abbrev cond0 (i : grid0.Coords) : Prop :=
  (Scalar.cmpi .ne (Scalar.extui (Scalar.cmpi .eq (BitVec.ofNat 32 (i 1).val) 0#32)) 0#32) = 1#1
theorem hcond0 : ∀ t : Fin cfg0.N, cond0 (grid0.coords t) ↔ t.val % 32 = 0 :=
  (by decide +kernel : ∀ t : Fin grid0.N, cond0 (grid0.coords t) ↔ t.val % 32 = 0)

/-- The second conditional (copy the accumulator out): taken at the last tile of an expert. -/
abbrev cond1 (i : grid0.Coords) : Prop := k0_cond2 i = 1#1
theorem hcond1 : ∀ t : Fin cfg0.N, cond1 (grid0.coords t) ↔ t.val % 32 = 31 :=
  (by decide +kernel : ∀ t : Fin grid0.N, cond1 (grid0.coords t) ↔ t.val % 32 = 31)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- The output window is idle, and not written back, wherever the second conditional is not taken; live where it is. -/
theorem idle_4 : ∀ t : Fin cfg0.N, ¬cond1 (grid0.coords t) → cfg0.idle 4 (grid0.coords t) = true := by decide +kernel
theorem noFlush_4 : ∀ t : Fin cfg0.N, ¬cond1 (grid0.coords t) → (cfg0.win 4).flush t = false := by decide +kernel
theorem live_4 : ∀ t : Fin cfg0.N, cond1 (grid0.coords t) → cfg0.idle 4 (grid0.coords t) = false := by decide +kernel

/-! ## Whole-buffer loads and stores -/

theorem zeros2 : (![0, 0] : Fin 2 → ℕ) = fun _ => 0 := by funext a; fin_cases a <;> rfl
theorem zeros3 : (![0, 0, 0] : Fin 3 → ℕ) = fun _ => 0 := by funext a; fin_cases a <;> rfl

/-- A load of a whole buffer through the full rectangle at zero offsets reads what the buffer holds. -/
theorem load_whole {sp : Space} {S : Shape} {e : EltTy} (M : Memref sig .tc sp S e) (hM : M.IsWhole)
    {off : Fin S.rank → ℕ} (h : off = fun _ => 0) (inb : ∀ a, off a + S.size a ≤ S.size a) (X : S.Idx → Elt F e) :
    M.view.readAt (Elt F) (Rect.unit off S.size inb).toLoadRect (hM.unread X) = X := by
  rw [View.readAt_eq_ld, hM.read_unread, View.ld_unit_zero h inb]

/-- A store through the full rectangle at zero offsets, made last, leaves its payload whatever was there. -/
theorem store_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-! ## The body's three cases, on any whole staging memrefs -/

set_option maxHeartbeats 1000000 in
/-- At the first tile of an expert the first conditional is taken and the second is not: the accumulator, found at
    anything, is cleared and then left at the tile's contribution added to zero; every window's buffer is left as
    found. -/
theorem runA (c : Dev nD) (i : grid0.Coords)
    (arg2 : Memref sig .tc .vmem S1x512x2048 .f32) (harg2 : arg2.IsWhole)
    (arg3 : Memref sig .tc .vmem S1x128x2048 .f32) (harg3 : arg3.IsWhole)
    (arg4 : Memref sig .tc .vmem S1x128x2048 .f32) (harg4 : arg4.IsWhole)
    (arg5 : Memref sig .tc .vmem S1x2048x128 .f32) (harg5 : arg5.IsWhole)
    (arg6 : Memref sig .tc .vmem S1x512x2048 .f32) (harg6 : arg6.IsWhole)
    (arg7 : Memref sig .tc .vmem S512x2048 .f32) (harg7 : arg7.IsWhole)
    (hc0 : cond0 i) (hc1 : ¬cond1 i)
    (x : Vec F S1x512x2048 .f32) (g u : Vec F S1x128x2048 .f32) (d : Vec F S1x2048x128 .f32)
    (xo : Vec F S1x512x2048 .f32) (E : Set ℕ) (K : PUnit → sProp 𝕄) :
    iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare xo ∗ (∃ xs, owns (c : Thread nD τ) arg7 fullShare xs)
        ∗ (iprop(owns (c : Thread nD τ) arg2 fullShare x ∗ owns (c : Thread nD τ) arg3 fullShare g ∗ owns (c : Thread nD τ) arg4 fullShare u
            ∗ owns (c : Thread nD τ) arg5 fullShare d ∗ owns (c : Thread nD τ) arg6 fullShare xo
            ∗ owns (c : Thread nD τ) arg7 fullShare (k0_pay2 x g u d (k0_pay1 (F := F)))) -∗ K ⟨⟩))
      ⊢ wp frame (wpE (defs₀ (F := F)) Variants.none c none) E
          (cc0__moe_kernel i arg2 harg2 arg3 harg3 arg4 harg4 arg5 harg5 arg6 harg6 arg7 harg7) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%xs, %fs, %hfs, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  -- the last store's payload, its accumulator operand the zeros the first store left
  rw [store_whole _ _ zeros2, load_whole arg2 harg2 zeros3, load_whole arg3 harg3 zeros3, load_whole arg4 harg4 zeros3,
    load_whole arg5 harg5 zeros3]
  unfold runA.sl.v22 runA.sl.HS_1
  rw [View.readCov_unit_zero _ zeros2]

set_option maxHeartbeats 1000000 in
/-- Between the first and the last tile of an expert neither conditional is taken: the accumulator, found at xs,
    is left at the tile's contribution added to xs; every window's buffer is left as found. -/
theorem runB (c : Dev nD) (i : grid0.Coords)
    (arg2 : Memref sig .tc .vmem S1x512x2048 .f32) (harg2 : arg2.IsWhole)
    (arg3 : Memref sig .tc .vmem S1x128x2048 .f32) (harg3 : arg3.IsWhole)
    (arg4 : Memref sig .tc .vmem S1x128x2048 .f32) (harg4 : arg4.IsWhole)
    (arg5 : Memref sig .tc .vmem S1x2048x128 .f32) (harg5 : arg5.IsWhole)
    (arg6 : Memref sig .tc .vmem S1x512x2048 .f32) (harg6 : arg6.IsWhole)
    (arg7 : Memref sig .tc .vmem S512x2048 .f32) (harg7 : arg7.IsWhole)
    (hc0 : ¬cond0 i) (hc1 : ¬cond1 i)
    (x : Vec F S1x512x2048 .f32) (g u : Vec F S1x128x2048 .f32) (d : Vec F S1x2048x128 .f32)
    (xo : Vec F S1x512x2048 .f32) (xs : Vec F S512x2048 .f32) (E : Set ℕ) (K : PUnit → sProp 𝕄) :
    iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare xo ∗ owns (c : Thread nD τ) arg7 fullShare xs
        ∗ (iprop(owns (c : Thread nD τ) arg2 fullShare x ∗ owns (c : Thread nD τ) arg3 fullShare g ∗ owns (c : Thread nD τ) arg4 fullShare u
            ∗ owns (c : Thread nD τ) arg5 fullShare d ∗ owns (c : Thread nD τ) arg6 fullShare xo
            ∗ owns (c : Thread nD τ) arg7 fullShare (k0_pay2 x g u d xs)) -∗ K ⟨⟩))
      ⊢ wp frame (wpE (defs₀ (F := F)) Variants.none c none) E
          (cc0__moe_kernel i arg2 harg2 arg3 harg3 arg4 harg4 arg5 harg5 arg6 harg6 arg7 harg7) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  rw [store_whole _ _ zeros2, load_whole arg2 harg2 zeros3, load_whole arg3 harg3 zeros3, load_whole arg4 harg4 zeros3,
    load_whole arg5 harg5 zeros3, load_whole arg7 harg7 zeros2]

set_option maxHeartbeats 1000000 in
/-- At the last tile of an expert the second conditional is taken and the first is not: the accumulator, found at
    xs, is left at the tile's contribution added to xs, and the output window's buffer, found at anything, at that
    value reshaped. -/
theorem runC (c : Dev nD) (i : grid0.Coords)
    (arg2 : Memref sig .tc .vmem S1x512x2048 .f32) (harg2 : arg2.IsWhole)
    (arg3 : Memref sig .tc .vmem S1x128x2048 .f32) (harg3 : arg3.IsWhole)
    (arg4 : Memref sig .tc .vmem S1x128x2048 .f32) (harg4 : arg4.IsWhole)
    (arg5 : Memref sig .tc .vmem S1x2048x128 .f32) (harg5 : arg5.IsWhole)
    (arg6 : Memref sig .tc .vmem S1x512x2048 .f32) (harg6 : arg6.IsWhole)
    (arg7 : Memref sig .tc .vmem S512x2048 .f32) (harg7 : arg7.IsWhole)
    (hc0 : ¬cond0 i) (hc1 : cond1 i)
    (x : Vec F S1x512x2048 .f32) (g u : Vec F S1x128x2048 .f32) (d : Vec F S1x2048x128 .f32)
    (xs : Vec F S512x2048 .f32) (E : Set ℕ) (K : PUnit → sProp 𝕄) :
    iprop(owns (c : Thread nD τ) arg2 fullShare x ∗ owns (c : Thread nD τ) arg3 fullShare g ∗ owns (c : Thread nD τ) arg4 fullShare u
        ∗ owns (c : Thread nD τ) arg5 fullShare d ∗ (∃ xo, owns (c : Thread nD τ) arg6 fullShare xo) ∗ owns (c : Thread nD τ) arg7 fullShare xs
        ∗ (iprop(owns (c : Thread nD τ) arg2 fullShare x ∗ owns (c : Thread nD τ) arg3 fullShare g ∗ owns (c : Thread nD τ) arg4 fullShare u
            ∗ owns (c : Thread nD τ) arg5 fullShare d ∗ owns (c : Thread nD τ) arg6 fullShare (k0_pay3 (k0_pay2 x g u d xs))
            ∗ owns (c : Thread nD τ) arg7 fullShare (k0_pay2 x g u d xs)) -∗ K ⟨⟩))
      ⊢ wp frame (wpE (defs₀ (F := F)) Variants.none c none) E
          (cc0__moe_kernel i arg2 harg2 arg3 harg3 arg4 harg4 arg5 harg5 arg6 harg6 arg7 harg7) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%xo, %f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  -- what the accumulator's one store wrote
  have hacc : runC.sl.HS_1 c arg2 harg2 arg3 harg3 arg4 harg4 arg5 harg5 arg7 harg7 x g u d xs
      = [(⟨Rect.unit ![0, 0] S512x2048.size inb_S512x2048_S512x2048_0_0, k0_pay2 x g u d xs⟩ : View.Piece (Elt F) S512x2048 .f32)] := by
    unfold runC.sl.HS_1
    rw [load_whole arg2 harg2 zeros3, load_whole arg3 harg3 zeros3, load_whole arg4 harg4 zeros3,
      load_whole arg5 harg5 zeros3, load_whole arg7 harg7 zeros2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    -- the output's store wrote the accumulator as read back after its store
    rw [store_whole _ _ zeros3]
    unfold runC.sl.v30
    rw [hacc, View.readCov_unit_zero _ zeros2]
  iexists _; isplitr
  swap; · iexact HS
  ipureintro
  rw [hacc, store_whole _ _ zeros2]

/-! ## The body at a point -/

/-- Each window's current staging memref at a point, as the pipeline passes it, and its wholeness. -/
abbrev ms0 (t : Fin cfg0.N) : Memref sig .tc .vmem S1x512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x2048 .f32 := win0_4.stage (cfg0.slots t 4)
abbrev hs4 (t : Fin cfg0.N) : (ms4 t).IsWhole := hstage0_4 ((cfg0.slots t 4).cast nbuf0_4)

/-- What the body is called with at a point: the invariant, what the core owes, each window's buffer at what it
    then holds. -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d)))

/-- What it returns. -/
def bodyPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t
    ∗ (dat m c).leavesExact 3 t ∗ (dat m c).leavesExact 4 t)

set_option maxHeartbeats 4000000 in
/-- The body at any point. The inputs' buffers hold their blocks; the point's position within its expert's run of
    32 tiles says which of the three cases it is in; the invariant hands the body the accumulator at what the point
    before left (at anything before the first point) and takes it back at this point's value; the output window's
    buffer is handed back as found except at the last tile, where it holds the accumulator reshaped. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).owesAt () t.succ = (dat m c).owesAt () t.castSucc from rfl]
  rw [Phi_succ, Phi_castSucc]
  have hN : t.val < 512 := lt_of_lt_of_eq t.isLt (show cfg0.N = 512 from N_0)
  rw [show (dat m c).leavesExact 0 t = owns (c : Thread nD τ) (ms0 t) fullShare ((dat m c).after 0 t) from by
    unfold Dat.leavesExact; rw [live_0 t], after_0]
  rw [show (dat m c).leavesExact 1 t = owns (c : Thread nD τ) (ms1 t) fullShare ((dat m c).after 1 t) from by
    unfold Dat.leavesExact; rw [live_1 t], after_1]
  rw [show (dat m c).leavesExact 2 t = owns (c : Thread nD τ) (ms2 t) fullShare ((dat m c).after 2 t) from by
    unfold Dat.leavesExact; rw [live_2 t], after_2]
  rw [show (dat m c).leavesExact 3 t = owns (c : Thread nD τ) (ms3 t) fullShare ((dat m c).after 3 t) from by
    unfold Dat.leavesExact; rw [live_3 t], after_3]
  by_cases h0 : t.val % 32 = 0
  · -- the first tile of an expert
    have hc0 : cond0 (grid0.coords t) := (hcond0 t).mpr h0
    have hc1 : ¬cond1 (grid0.coords t) := fun h => by have := (hcond1 t).mp h; omega
    rw [Dat.leavesExact_idle (dat m c) 4 t (idle_4 t hc1) (noFlush_4 t hc1)]
    rw [scAt_first m c t h0]
    by_cases hz : t.val = 0
    · rw [PhiS_zero m c _ _ hz]
      iintro ⟨HS, Ho, ⟨%d0, H0⟩, ⟨%d1, H1⟩, ⟨%d2, H2⟩, ⟨%d3, H3⟩, ⟨%d4, H4⟩⟩
      iapply (runA c (grid0.coords t) _ _ _ _ _ _ _ _ _ _ _ _ hc0 hc1 (xblk m c t) (gblk m c t) (ublk m c t) (dblk m c t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
    · rw [PhiS_pos m c _ _ hz]
      iintro ⟨HS, Ho, ⟨%d0, H0⟩, ⟨%d1, H1⟩, ⟨%d2, H2⟩, ⟨%d3, H3⟩, ⟨%d4, H4⟩⟩
      iapply (runA c (grid0.coords t) _ _ _ _ _ _ _ _ _ _ _ _ hc0 hc1 (xblk m c t) (gblk m c t) (ublk m c t) (dblk m c t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
  · have hc0 : ¬cond0 (grid0.coords t) := fun h => h0 ((hcond0 t).mp h)
    have hz : t.val ≠ 0 := fun h => h0 (by rw [h])
    rw [scAt_next m c t h0, PhiS_pos m c _ _ hz]
    by_cases h1 : t.val % 32 = 31
    · -- the last tile of an expert
      have hc1 : cond1 (grid0.coords t) := (hcond1 t).mpr h1
      rw [show (dat m c).leavesExact 4 t = owns (c : Thread nD τ) (ms4 t) fullShare ((dat m c).after 4 t) from by
        unfold Dat.leavesExact; rw [live_4 t hc1], after_4, scAt_next m c t h0]
      iintro ⟨HS, Ho, ⟨%d0, H0⟩, ⟨%d1, H1⟩, ⟨%d2, H2⟩, ⟨%d3, H3⟩, ⟨%d4, H4⟩⟩
      iapply (runC c (grid0.coords t) _ _ _ _ _ _ _ _ _ _ _ _ hc0 hc1 (xblk m c t) (gblk m c t) (ublk m c t) (dblk m c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · -- a tile in between
      have hc1 : ¬cond1 (grid0.coords t) := fun h => h1 ((hcond1 t).mp h)
      rw [Dat.leavesExact_idle (dat m c) 4 t (idle_4 t hc1) (noFlush_4 t hc1)]
      iintro ⟨HS, Ho, ⟨%d0, H0⟩, ⟨%d1, H1⟩, ⟨%d2, H2⟩, ⟨%d3, H3⟩, ⟨%d4, H4⟩⟩
      iapply (runB c (grid0.coords t) _ _ _ _ _ _ _ _ _ _ _ _ hc0 hc1 (xblk m c t) (gblk m c t) (ublk m c t) (dblk m c t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The body obligation at every grid point: from the invariant and each window's current staging buffer at what
    the proof data say it holds, the kernel body runs to the invariant at the next point and each buffer at what
    the proof data say it leaves. -/
theorem body_obligation (c : Dev nD) : BodyObligation (dat (F := F) m c) (defs₀ (F := F)) Variants.none () Set.univ := fun t => by
  rw [bigSep_W0, bigSep_W0]
  exact sound_body m c t

end Cert.KernelIdeal.Hand

end
-- ==== Proof.KILaunch.lean ====
import proofs.«181277_j8916352106544_1_alg».proof.Proof.KIBody
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- Core c's buffers when the region is left: the output array at what the pipeline's write-backs leave in it,
    every other buffer as the region found it (the region writes nothing else). -/
def W2 (c : Dev nD) : Valuation τ sig (Elt F) :=
  Function.update (W1 m c) (Proc.devRef .tc main_v1) ((dat m c).arrAt 4 cfg0.N)

/-- After the one host operation behind the region (the result reshaped to the caller's token-major layout). -/
abbrev W3 (c : Dev nD) : Valuation τ sig (Elt F) := StableHlo.after hostOps1 (W2 m c)

/-! ## The six arrays of @main on a core, one by one -/

/-- A core's unscoped buffers are @main's three arguments and three values. -/
theorem unscopedBufs_six (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_v0) ↦{fullShare} V main_v0)
          ∗ (((c : Thread nD τ).loc main_v1) ↦{fullShare} V main_v1) ∗ (((c : Thread nD τ).loc main_v2) ↦{fullShare} V main_v2)) := by
  unfold unscopedBufs
  exact bigSep_eq_bigSepL_of_eq [main_arg0, main_arg1, main_arg2, main_v0, main_v1, main_v2] (by decide) (by decide) _

/-- The region's arrays window by window: the token block and the down weights whole, the stacked gate/up weights
    once at each half of the read share, the output whole. -/
theorem arrays_five (c : Dev nD) (G : (w : Fin cfg0.W) → Buf (Elt F) ((cfg0.win w).arr.view.loc (c : Thread nD τ))) :
    ((dat m c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v1) ↦{fullShare} G 4)) := by
  unfold Dat.arrays
  rw [bigSep_W0]
  rw [(arr_whole0 0).set_eq_univ, (arr_whole0 1).set_eq_univ, (arr_whole0 3).set_eq_univ, (arr_whole0 4).set_eq_univ]
  rfl

/-! ## The region's entry and exit on the arrays -/

/-- The region leaves the output array at what the write-backs made of it, -/
theorem W2_out (c : Dev nD) : W2 m c (Proc.devRef .tc main_v1) = (dat m c).arrAt 4 cfg0.N := by
  unfold W2; exact Function.update_self _ _ _
/-- and every other buffer as it found it. -/
theorem W2_of_ne (c : Dev nD) (b : Ref sig .tc) (h : b ≠ main_v1) :
    W2 m c (Proc.devRef .tc b) = W1 m c (Proc.devRef .tc b) := by
  unfold W2; exact Function.update_of_ne (StableHlo.devRef_ne_of_ne h) _ _

/-- An input window's array is never written: at every position it holds what the region found. -/
theorem arrAt_in0 (c : Dev nD) (n : ℕ) : (dat m c).arrAt 0 n = V1 m c main_v0 := ((dat m c).arrAt_in 0 rfl n).trans (A_eq m c 0)
theorem arrAt_in1 (c : Dev nD) (n : ℕ) : (dat m c).arrAt 1 n = V1 m c main_arg1 := ((dat m c).arrAt_in 1 rfl n).trans (A_eq m c 1)
theorem arrAt_in2 (c : Dev nD) (n : ℕ) : (dat m c).arrAt 2 n = V1 m c main_arg1 := ((dat m c).arrAt_in 2 rfl n).trans (A_eq m c 2)
theorem arrAt_in3 (c : Dev nD) (n : ℕ) : (dat m c).arrAt 3 n = V1 m c main_arg2 := ((dat m c).arrAt_in 3 rfl n).trans (A_eq m c 3)

/-- ENTRY. A core's six arrays at the entry contents are the region's arrays at the proof data's entry contents —
    the stacked gate/up weights' full share dealt in halves to the two windows on it — and the two arrays the
    region bypasses. -/
theorem entry_split (c : Dev nD) :
    (StableHlo.held (c : Thread nD τ) (Pipeline.ucRefs τ sig) (W1 m c) : sProp 𝕄)
      ⊢ iprop((dat m c).arrays ((dat m c).arrAt · 0)
          ∗ Pipeline.unscopedRest (Ix := Unit) (Name := ℕ) (U := UR sig nD τ) (Lvl := ℕ) spec0 c (V1 m c)) := by
  rw [← Pipeline.unscopedBufs_held c (W1 m c), unscopedBufs_six, arrays_five, unscopedRest0_eq]
  iintro ⟨Ha0, Ha1, Ha2, Hv0, Hv1, Hv2⟩
  ihave H := (pointsTo_share (PosShare.mem_left_op_right fullShare)).1 $$ Ha1
  icases H with ⟨Hl, Hr⟩
  isplitr [Ha0 Hv2]
  · isplitl [Hv0]; · iexact Hv0
    isplitl [Hl]; · iexact Hl
    isplitl [Hr]; · iexact Hr
    isplitl [Ha2]; · iexact Ha2
    iexact Hv1
  isplitl [Ha0]; · iexact Ha0
  iexact Hv2

/-- EXIT. The region's arrays at their last contents — the inputs as found, so the two halves of the stacked
    weights rejoin; the output at its write-backs — and the two bypassing arrays are the core's six arrays at
    the exit contents. -/
theorem exit_join (c : Dev nD) :
    iprop((dat m c).arrays ((dat m c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held c (W2 m c), unscopedBufs_six, arrays_five, unscopedRest0_eq]
  rw [arrAt_in0, arrAt_in1, arrAt_in2, arrAt_in3, W2_out,
    W2_of_ne m c main_arg0 (by decide), W2_of_ne m c main_arg1 (by decide), W2_of_ne m c main_arg2 (by decide),
    W2_of_ne m c main_v0 (by decide), W2_of_ne m c main_v2 (by decide)]
  iintro ⟨⟨Hv0, Hl, Hr, Ha2, Hv1⟩, Ha0, Hv2⟩
  ihave Ha1 := (pointsTo_share (PosShare.mem_left_op_right fullShare)).2 $$ [Hl Hr]
  · isplitl [Hl] <;> iassumption
  isplitl [Ha0]; · iexact Ha0
  isplitl [Ha1]; · iexact Ha1
  isplitl [Ha2]; · iexact Ha2
  isplitl [Hv0]; · iexact Hv0
  isplitl [Hv1]; · iexact Hv1
  iexact Hv2

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- The core's generator register at some state: the kernel draws no random number, so it rides beside the buffers. -/
abbrev Gr (c : Dev nD) : sProp 𝕄 := iprop(∃ r, prngReg c r)
/-- The core owing nothing, whatever pairs it has recorded. -/
abbrev Owe0 (c : Dev nD) : sProp 𝕄 := iprop(∃ W, owes (c : Thread nD τ) (0 : CellTallies nD τ sig Unit) W)
/-- What rides beside the buffers through every segment. -/
abbrev R (c : Dev nD) : sProp 𝕄 := iprop(Gr c ∗ Owe0 c)
/-- A reshape before or behind the region as a segment over the core's six arrays from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The last thread state beside the core owing nothing: the six arrays at W3, the generator register. -/
abbrev Tₙ (c : Dev nD) : sProp 𝕄 := iprop(StableHlo.held (c : Thread nD τ) (Pipeline.ucRefs τ sig) (W3 m c) ∗ Gr c)

/-! ## The region as a segment -/

/-- The proof data owe nothing at any position and bound the recorded pairs by nothing: a core owing nothing is
    the pipeline's account of what it owes there, -/
theorem owe_in (c : Dev nD) (t : Fin (cfg0.N + 1)) : Owe0 (F := F) c ⊢ (dat m c).owesAt () t := by
  unfold Pipeline.Dat.owesAt Pipeline.owesWithin
  iintro ⟨%W, HO⟩
  iexists W
  isplitr; · ipureintro; exact fun _ _ => Or.inl trivial
  iexact HO
/-- and back. -/
theorem owe_out (c : Dev nD) (t : Fin (cfg0.N + 1)) : (dat m c).owesAt () t ⊢ Owe0 (F := F) c := by
  unfold Pipeline.Dat.owesAt Pipeline.owesWithin
  iintro ⟨%W, -, HO⟩
  iexists W; iexact HO

/-- The scratch accumulator is the core's one scoped buffer that no window stages. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- Behind the last point the invariant is the accumulator at the last point's sum. -/
theorem Phi_last (c : Dev nD) :
    (dat m c).Φ (Fin.last cfg0.N) = owns (c : Thread nD τ) scM fullShare (scAt m c (cfg0.N - 1) (by decide)) :=
  PhiS_pos m c cfg0.N (Nat.le_refl _) (by decide)

/-- The kernel prefetches no table. -/
theorem no_tables (c : Dev nD) (V) :
    (BI.emp : sProp 𝕄) ⊢ Pipeline.prefHeld (Ix := Unit) (Name := ℕ) (U := UR sig nD τ) (Lvl := ℕ) (pcfgs (F := F) 0).pre c (fun _ => fullShare) V := by
  unfold Pipeline.prefHeld
  rw [show (Finset.univ : Finset (Fin 0)) = ∅ from rfl, BI.bigSep_empty]

set_option backward.isDefEq.respectTransparency.types false in
/-- THE REGION over the thread state: entered from the six arrays at W1, left at W2. The arrays go in by
    entry_split and come back by exit_join; the scratch goes into the invariant and comes back at contents
    forgotten; the generator register and the reshaped pair bypass; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop(Pipeline.unscopedRest (Ix := Unit) (Name := ℕ) (U := UR sig nD τ) (Lvl := ℕ) spec0 c (V1 m c) ∗ Gr c)
  hentry c := by
    rw [Pipeline.ownSems0_none]
    iintro ⟨⟨Hsix, Hg, HO⟩, -, -⟩
    ihave Hsp := entry_split m c $$ Hsix
    icases Hsp with ⟨Harr, Hby⟩
    imodintro
    isplitl [Harr]; · iexact Harr
    isplitr; · iapply no_tables c; iempintro
    isplitl [HO]; · iapply owe_in m c 0; iexact HO
    isplitr; · iempintro
    isplitl [Hby]; · iexact Hby
    iexact Hg
  hin c := by
    rw [show (pdats m 0 c).Φ 0 = iprop(∃ d, owns (c : Thread nD τ) scM fullShare d) from rfl]
    iintro ⟨-, -, Hs⟩
    iapply (Entails.of_eq (scopedRest_scratch c))
    iexact Hs
  hout c := by
    rw [Pipeline.ownSems0_none, show (pdats m 0 c).Φ (Fin.last _) = (dat m c).Φ (Fin.last cfg0.N) from rfl, Phi_last]
    iintro Hs
    isplitr; · iempintro
    isplitr; · iempintro
    iapply (Entails.of_eq (scopedRest_scratch c).symm)
    iexists _; iexact Hs
  hexit c := by
    iintro ⟨Harr, HO, -, Hby, Hg⟩
    imodintro
    isplitl [Harr Hby]
    · iapply exit_join m c
      isplitl [Harr]; · iexact Harr
      iexact Hby
    isplitl [Hg]; · iexact Hg
    iapply owe_out m c (Fin.last cfg0.N); iexact HO

/-! ## @main as segments, and the launch -/

/-- @main's three segments: the tokens reshaped, the region, the result reshaped back. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

/-- @main is the run of the three segments. -/
theorem main_run (c : Dev nD) : main (F := F) c = Pipeline.Seg.run (segs m) :=
  main_segs adm (pdats m) () 𝒱₀ L lv _ _ (reg0 m) rfl rfl c

/-- The last thread state read against a final state: every one of the core's six arrays holds W3 of it. -/
theorem last_read (c : Dev nD) (s' : Phys nD τ sig (Elt F)) :
    iprop(Tₙ m c ∗ SI s') ⊢ (|={Set.univ}=> iprop(⌜∀ b ∈ Pipeline.ucRefs τ sig, s'.mem.mem ((c : Thread nD τ).1, b) = W3 m c b⌝ ∗ SI s') : sProp 𝕄) := by
  iintro ⟨⟨Hsix, -⟩, HSI⟩
  unfold StableHlo.held
  imodintro
  iapply (pointsTo_read_all (Pipeline.ucRefs τ sig) (fun b => ((c : Thread nD τ).1, b)) (W3 m c) s')
  isplitl [Hsix]; · iexact Hsix
  iexact HSI

set_option backward.isDefEq.respectTransparency.types false in
/-- THE RUN. From any memory with zero counters every weakly fair execution of @main terminates without a fault,
    and in every final state each unscoped buffer of core c holds W3 m c of it. -/
theorem run_main : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ iprop(Tₙ m c ∗ Owe0 c)
      iintro ⟨Hsix, Hg, HO⟩
      isplitr [HO]
      · isplitl [Hsix]; · iexact Hsix
        iexact Hg
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hsix, -, HO, -, Hreg, -⟩, -⟩
      imodintro
      isplitl [Hsix]; · iexact Hsix
      isplitl [Hreg]; · iexists _; iexact Hreg
      iexists ∅; iexact HO)
    (QY := fun c s => ∀ b ∈ Pipeline.ucRefs τ sig, s.mem ((c : Thread nD τ).1, b) = W3 m c b)
    (hfin := last_read m)
    (hQ := fun s h c b hb => h c b hb)

end Cert.KernelIdeal.Hand

end
-- ==== Proof.KIFrame.lean ====
import proofs.«181277_j8916352106544_1_alg».proof.Proof.KILaunch
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Neither host operation and no write-back touches an argument: each ends as launched. -/
theorem W3_arg0 (c : Dev nD) : W3 m c (Proc.devRef .tc main_arg0) = m ((c : Thread nD τ).loc main_arg0) := by
  dsimp only [W3, W2, W1, W0, hostOps0, hostOps1]
  after_results
  rw [Function.update_of_ne (StableHlo.devRef_ne_of_ne (by decide)), StableHlo.reshape_result_ne]
  decide
theorem W3_arg1 (c : Dev nD) : W3 m c (Proc.devRef .tc main_arg1) = m ((c : Thread nD τ).loc main_arg1) := by
  dsimp only [W3, W2, W1, W0, hostOps0, hostOps1]
  after_results
  rw [Function.update_of_ne (StableHlo.devRef_ne_of_ne (by decide)), StableHlo.reshape_result_ne]
  decide
theorem W3_arg2 (c : Dev nD) : W3 m c (Proc.devRef .tc main_arg2) = m ((c : Thread nD τ).loc main_arg2) := by
  dsimp only [W3, W2, W1, W0, hostOps0, hostOps1]
  after_results
  rw [Function.update_of_ne (StableHlo.devRef_ne_of_ne (by decide)), StableHlo.reshape_result_ne]
  decide

/-- The result buffer is the output array, as the region leaves it, reshaped to tokens × hidden. -/
theorem W3_v2 (c : Dev nD) : W3 m c (Proc.devRef .tc main_v2)
    = shapeCast S8192x2048 ((dat m c).arrAt 4 cfg0.N) shapeCasts_S16x512x2048_S8192x2048 := by
  dsimp only [W3, W2, W1, W0, hostOps0, hostOps1]
  after_results
  rw [Function.update_self]
  rfl

/-- The run, read at the result and the arguments. -/
theorem run_value : θ_run defs (onTc (τ := τ) (main (F := F))) ⟨m, fun _ => 0, ρ⟩ (fun r => ∀ c : Dev nD,
      r.2.mem ((c.tc : Thread nD τ).loc main_v2) = shapeCast S8192x2048 ((dat m c).arrAt 4 cfg0.N) shapeCasts_S16x512x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_v2 m c),
     (h c _ (mem_uc main_arg0 (by decide))).trans (W3_arg0 m c),
     (h c _ (mem_uc main_arg1 (by decide))).trans (W3_arg1 m c),
     (h c _ (mem_uc main_arg2 (by decide))).trans (W3_arg2 m c)⟩) (run_main m ρ)

/-- The frame: the program runs to the end without a fault and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.KernelIdeal.Hand

end
-- ==== Proof.Spec.lean ====
/-
  The specification: what both programs compute, at the ideal instance, as ONE function of the three argument
  arrays, index by index on the extended reals.

  Tokens are grouped by expert: row e·512 + t of the token array is token t of expert e. For expert e,
  gate(t, i) = Σ_l x(t, l) · W(e, i, l) and up(t, i) = Σ_l x(t, l) · W(e, 4096 + i, l) are the two halves of the
  stacked projection, act = up · (gate · σ(gate)) with σ the logistic function, and
  out(t, h) = Σ_i act(t, i) · D(e, h, i). The kernel computes the last sum tile by tile, 32 tiles of 128 columns,
  adding each tile's partial sum to an accumulator that starts at zero; the reference computes it in one piece.
  The two agree because a finite sum over Fin 4096 is the sum over 32 tiles of the tiles' sums: addition on the
  extended reals is commutative and associative, so no finiteness is needed.
-/
import Idealize.ShloMosaic.PureOps.Ideal
import Idealize.ShloMosaic.Lib.ValueIdx
import Mathlib.Algebra.BigOperators.Fin
import Mathlib.Algebra.BigOperators.Intervals

noncomputable section

namespace Cert.Spec

open Idealize.ShloMosaic Idealize.ShloMosaic.ValueIdx

/-- Tokens × hidden. -/
abbrev SX : Shape := ⟨2, ![8192, 2048]⟩
/-- Experts × (gate rows then up rows) × hidden. -/
abbrev SW : Shape := ⟨3, ![16, 8192, 2048]⟩
/-- Experts × hidden × intermediate. -/
abbrev SD : Shape := ⟨3, ![16, 2048, 4096]⟩

variable (x : SX.Idx → EReal) (w : SW.Idx → EReal) (dn : SD.Idx → EReal)

/-- The row of the token array that holds token t of expert e. -/
def tok (e : Fin 16) (t : Fin 512) : Fin 8192 := ⟨e.val * 512 + t.val, by omega⟩
/-- Row i of the gate half of the stacked weights. -/
def gateRow (i : Fin 4096) : Fin 8192 := ⟨i.val, by omega⟩
/-- Row i of the up half of the stacked weights. -/
def upRow (i : Fin 4096) : Fin 8192 := ⟨4096 + i.val, by omega⟩

/-- The gate projection of token t of expert e at intermediate column i. -/
def gate (e : Fin 16) (t : Fin 512) (i : Fin 4096) : EReal := ∑ l : Fin 2048, x (ix2 (tok e t) l) * w (ix3 e (gateRow i) l)
/-- The up projection. -/
def up (e : Fin 16) (t : Fin 512) (i : Fin 4096) : EReal := ∑ l : Fin 2048, x (ix2 (tok e t) l) * w (ix3 e (upRow i) l)
/-- The gated activation: up · (gate · σ(gate)). -/
def act (e : Fin 16) (t : Fin 512) (i : Fin 4096) : EReal := up x w e t i * (gate x w e t i * Ideal.logistic (gate x w e t i))
/-- The down projection: the result for token t of expert e at hidden column h. -/
def out (e : Fin 16) (t : Fin 512) (h : Fin 2048) : EReal := ∑ i : Fin 4096, act x w e t i * dn (ix3 e h i)

/-- The result as an array over tokens × hidden. -/
def G : SX.Idx → EReal := fun j =>
  out x w dn ⟨(j 0).val / 512, by have := (j 0).isLt; simp only [Matrix.cons_val_zero] at this; omega⟩
    ⟨(j 0).val % 512, Nat.mod_lt _ (by norm_num)⟩ (j 1)

/-! ## The same sum, tile by tile -/

/-- Column j of tile k of the intermediate axis. -/
def tileCol (k : Fin 32) (j : Fin 128) : Fin 4096 := ⟨128 * k.val + j.val, by omega⟩

/-- Tile k's partial sum of the down projection. -/
def part (e : Fin 16) (t : Fin 512) (h : Fin 2048) (k : Fin 32) : EReal :=
  ∑ j : Fin 128, act x w e t (tileCol k j) * dn (ix3 e h (tileCol k j))

/-- The accumulator after the tiles 0 … n-1 (nothing beyond tile 31). -/
def accTo (e : Fin 16) (t : Fin 512) (h : Fin 2048) (n : ℕ) : EReal :=
  ∑ k ∈ Finset.range n, if hk : k < 32 then part x w dn e t h ⟨k, hk⟩ else 0

theorem accTo_zero (e : Fin 16) (t : Fin 512) (h : Fin 2048) : accTo x w dn e t h 0 = 0 := by
  simp [accTo]

theorem accTo_succ (e : Fin 16) (t : Fin 512) (h : Fin 2048) (k : Fin 32) :
    accTo x w dn e t h (k.val + 1) = accTo x w dn e t h k.val + part x w dn e t h k := by
  unfold accTo
  rw [Finset.sum_range_succ, dif_pos k.isLt]

/-- A sum over the 4096 columns is the sum over the 32 tiles of the sums over a tile's 128 columns. -/
theorem sum_tiles {M : Type*} [AddCommMonoid M] (f : Fin 4096 → M) :
    ∑ i : Fin 4096, f i = ∑ k : Fin 32, ∑ j : Fin 128, f (tileCol k j) := by
  rw [← Finset.sum_product', Finset.univ_product_univ]
  refine (Fintype.sum_equiv (finProdFinEquiv (m := 32) (n := 128)) (fun p => f (tileCol p.1 p.2)) f ?_).symm
  rintro ⟨k, j⟩
  refine congrArg f (Fin.ext ?_)
  simp only [tileCol, finProdFinEquiv_apply_val]
  omega

/-- All 32 tiles accumulated are the whole down projection. -/
theorem accTo_all (e : Fin 16) (t : Fin 512) (h : Fin 2048) : accTo x w dn e t h 32 = out x w dn e t h := by
  unfold accTo out
  rw [sum_tiles, Finset.sum_range]
  exact Finset.sum_congr rfl fun k _ => by rw [dif_pos k.isLt]; rfl

end Cert.Spec

end
-- ==== Proof.KIPay.lean ====
import proofs.«181277_j8916352106544_1_alg».proof.Proof.Gen.KernelIdeal.Skeleton
import proofs.«181277_j8916352106544_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen

/-! ## The projection product: token rows against a tile's weight rows, summed over the model axis -/

/-- The left operand's row is the result's row. -/
theorem proj_lhs_row (i : S512x128.Idx) (q : dot_S512x2048_S128x2048_S512x128_1_1_0_0_n_n.contr.Idx) :
    (dot_S512x2048_S128x2048_S512x128_1_1_0_0_n_n.lhsIdx i q 0).val = (i 0).val := by
  unfold DotDims.lhsIdx
  rw [dif_neg (show ¬(0 : Fin S512x2048.rank) ∈ dot_S512x2048_S128x2048_S512x128_1_1_0_0_n_n.lhsBatch by decide),
    dif_pos (show (0 : Fin S512x2048.rank) ∈ dot_S512x2048_S128x2048_S512x128_1_1_0_0_n_n.lhsNonContracting by decide)]
  rfl
/-- The left operand's column is the summation position. -/
theorem proj_lhs_col (i : S512x128.Idx) (q : dot_S512x2048_S128x2048_S512x128_1_1_0_0_n_n.contr.Idx) :
    (dot_S512x2048_S128x2048_S512x128_1_1_0_0_n_n.lhsIdx i q 1).val = (q ⟨0, by decide⟩).val :=
  dot_S512x2048_S128x2048_S512x128_1_1_0_0_n_n.lhsIdx_val_of_single rfl i q
/-- The right operand's row is the result's column. -/
theorem proj_rhs_row (i : S512x128.Idx) (q : dot_S512x2048_S128x2048_S512x128_1_1_0_0_n_n.contr.Idx) :
    (dot_S512x2048_S128x2048_S512x128_1_1_0_0_n_n.rhsIdx i q 0).val = (i 1).val := by
  unfold DotDims.rhsIdx
  rw [dif_neg (show ¬(0 : Fin S128x2048.rank) ∈ dot_S512x2048_S128x2048_S512x128_1_1_0_0_n_n.rhsBatch by decide),
    dif_pos (show (0 : Fin S128x2048.rank) ∈ dot_S512x2048_S128x2048_S512x128_1_1_0_0_n_n.rhsNonContracting by decide)]
  rfl
/-- The right operand's column is the summation position. -/
theorem proj_rhs_col (i : S512x128.Idx) (q : dot_S512x2048_S128x2048_S512x128_1_1_0_0_n_n.contr.Idx) :
    (dot_S512x2048_S128x2048_S512x128_1_1_0_0_n_n.rhsIdx i q 1).val = (q ⟨0, by decide⟩).val :=
  dot_S512x2048_S128x2048_S512x128_1_1_0_0_n_n.rhsIdx_val_of_single rfl i q

/-- A token block times a weight tile, both read along the model axis, into zeros: entry (p, q) is Σ_k l(p, k) · r(q, k). -/
theorem proj_apply {φ₁ φ₂ : FTy} (l : FVec Ideal S512x2048 φ₁) (r : FVec Ideal S128x2048 φ₂) (p : Fin 512) (q : Fin 128) :
    matmul dot_S512x2048_S128x2048_S512x128_1_1_0_0_n_n none l r (constant S512x128 .f32 0x00000000#32) (ix2 p q)
      = ∑ k : Fin 2048, (l (ix2 p k) : EReal) * r (ix2 q k) := by
  show FloatOps.matmul dot_S512x2048_S128x2048_S512x128_1_1_0_0_n_n none l r (constant S512x128 .f32 0x00000000#32) (ix2 p q) = _
  rw [Ideal.matmul_constant_zero_apply,
    ← Equiv.sum_comp (contrEquiv1 dot_S512x2048_S128x2048_S512x128_1_1_0_0_n_n 2048 rfl rfl).symm]
  refine Finset.sum_congr rfl fun k _ => ?_
  have hk := contrEquiv1_symm_val dot_S512x2048_S128x2048_S512x128_1_1_0_0_n_n 2048 rfl rfl k
  have el : dot_S512x2048_S128x2048_S512x128_1_1_0_0_n_n.lhsIdx (ix2 p q) ((contrEquiv1 dot_S512x2048_S128x2048_S512x128_1_1_0_0_n_n 2048 rfl rfl).symm k) = ix2 p k :=
    funext fun a => Fin.ext (by
      match a with
      | ⟨0, _⟩ => exact proj_lhs_row _ _
      | ⟨1, _⟩ => exact (proj_lhs_col _ _).trans hk)
  have er : dot_S512x2048_S128x2048_S512x128_1_1_0_0_n_n.rhsIdx (ix2 p q) ((contrEquiv1 dot_S512x2048_S128x2048_S512x128_1_1_0_0_n_n 2048 rfl rfl).symm k) = ix2 q k :=
    funext fun a => Fin.ext (by
      match a with
      | ⟨0, _⟩ => exact proj_rhs_row _ _
      | ⟨1, _⟩ => exact (proj_rhs_col _ _).trans hk)
  rw [el, er]

/-! ## The down product: activation rows against the down tile's rows, summed over the tile's hidden positions -/

/-- The left operand's row is the result's row. -/
theorem down_lhs_row (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl
/-- The left operand's column is the summation position. -/
theorem down_lhs_col (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
/-- The right operand's row is the result's column. -/
theorem down_rhs_row (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl
/-- The right operand's column is the summation position. -/
theorem down_rhs_col (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- An activation tile times a down-weight tile, both read along the tile axis, into zeros: entry (p, q) is Σ_j l(p, j) · r(q, j). -/
theorem down_apply {φ₁ φ₂ : FTy} (l : FVec Ideal S512x128 φ₁) (r : FVec Ideal S2048x128 φ₂) (p : Fin 512) (q : Fin 2048) :
    matmul dot_S512x128_S2048x128_S512x2048_1_1_0_0_n_n none l r (constant S512x2048 .f32 0x00000000#32) (ix2 p q)
      = ∑ k : Fin 128, (l (ix2 p k) : EReal) * r (ix2 q k) := by
  show FloatOps.matmul dot_S512x128_S2048x128_S512x2048_1_1_0_0_n_n none l r (constant S512x2048 .f32 0x00000000#32) (ix2 p q) = _
  rw [Ideal.matmul_constant_zero_apply,
    ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p q) ((contrEquiv1 dot_S512x128_S2048x128_S512x2048_1_1_0_0_n_n 128 rfl rfl).symm k) = ix2 p k :=
    funext fun a => Fin.ext (by
      match a with
      | ⟨0, _⟩ => exact down_lhs_row _ _
      | ⟨1, _⟩ => exact (down_lhs_col _ _).trans hk)
  have er : dot_S512x128_S2048x128_S512x2048_1_1_0_0_n_n.rhsIdx (ix2 p q) ((contrEquiv1 dot_S512x128_S2048x128_S512x2048_1_1_0_0_n_n 128 rfl rfl).symm k) = ix2 q k :=
    funext fun a => Fin.ext (by
      match a with
      | ⟨0, _⟩ => exact down_rhs_row _ _
      | ⟨1, _⟩ => exact (down_rhs_col _ _).trans hk)
  rw [el, er]

/-- A weight tile's projection of the token block, read from the loaded blocks: both lose their unit leading axis and
    change float format (the identity here) before the product, so entry (t, j) is Σ_l x(0, t, l) · w(0, j, l). -/
theorem proj_blocks_apply (x : Vec Ideal S1x512x2048 .f32) (w : Vec Ideal S1x128x2048 .f32) (t : Fin 512) (j : Fin 128) :
    matmul (F := Ideal) dot_S512x2048_S128x2048_S512x128_1_1_0_0_n_n none
        (truncf .bf16 (shapeCast S512x2048 x shapeCasts_S1x512x2048_S512x2048) bitsLt_bf16_f32)
        (truncf .bf16 (shapeCast S128x2048 w shapeCasts_S1x128x2048_S128x2048) bitsLt_bf16_f32)
        (constant S512x128 .f32 0x00000000#32) (ix2 t j)
      = ∑ l : Fin 2048, (x (ix3 (0 : Fin 1) t l) : EReal) * w (ix3 (0 : Fin 1) j l) := by
  refine (proj_apply _ _ t j).trans ?_
  refine Finset.sum_congr rfl fun l _ => ?_
  exact congrArg₂ (fun a b : EReal => a * b)
    (shapeCast_1ab_ab_apply x shapeCasts_S1x512x2048_S512x2048 t l)
    (shapeCast_1ab_ab_apply w shapeCasts_S1x128x2048_S128x2048 j l)

/-! ## The three values the body stores -/

/-- The value the body clears the accumulator with is zero everywhere. -/
theorem pay1_apply (i : S512x2048.Idx) : k0_pay1 (F := Ideal) i = (0 : EReal) := by
  unfold k0_pay1
  refine (congrFun (shapeCast_self _ shapeCasts_S512x2048_S512x2048) i).trans ?_
  exact Ideal.ofBits_zero_f32

/-- One grid point's update of the accumulator, at token row t and hidden column h: the accumulator plus the
    tile's partial sum Σ_j (up_j · (gate_j · σ(gate_j))) · d(h, j), with gate_j = Σ_l x(t, l) · g(j, l) and
    up_j = Σ_l x(t, l) · u(j, l) (both matrix products into zero, the changes of float format the identity). -/
theorem pay2_apply (x : Vec Ideal S1x512x2048 .f32) (g u : Vec Ideal S1x128x2048 .f32) (d : Vec Ideal S1x2048x128 .f32)
    (acc : Vec Ideal S512x2048 .f32) (t : Fin 512) (h : Fin 2048) :
    k0_pay2 x g u d acc (ix2 t h)
      = (acc (ix2 t h) : EReal) + ∑ j : Fin 128,
          ((∑ l : Fin 2048, (x (ix3 (0 : Fin 1) t l) : EReal) * u (ix3 (0 : Fin 1) j l))
            * ((∑ l : Fin 2048, (x (ix3 (0 : Fin 1) t l) : EReal) * g (ix3 (0 : Fin 1) j l))
              * Ideal.logistic (∑ l : Fin 2048, (x (ix3 (0 : Fin 1) t l) : EReal) * g (ix3 (0 : Fin 1) j l))))
          * d (ix3 (0 : Fin 1) h j) := by
  unfold k0_pay2
  refine (congrFun (shapeCast_self _ shapeCasts_S512x2048_S512x2048) (ix2 t h)).trans ?_
  refine (addf_apply _ _ _).trans ?_
  refine congrArg (fun z : EReal => (acc (ix2 t h) : EReal) + z) ?_
  refine (down_apply _ _ t h).trans ?_
  refine Finset.sum_congr rfl fun j _ => ?_
  have eG := proj_blocks_apply x g t j
  have eU := proj_blocks_apply x u t j
  have eD := shapeCast_1ab_ab_apply d shapeCasts_S1x2048x128_S2048x128 h j
  exact congrArg₂ (fun a b : EReal => a * b)
    (congrArg₂ (fun a b : EReal => a * b) eU
      (congrArg₂ (fun a b : EReal => a * b) eG (congrArg Ideal.logistic eG)))
    eD

/-- The output block is the accumulator with a unit leading axis. -/
theorem pay3_apply (a : Vec Ideal S512x2048 .f32) (t : Fin 512) (h : Fin 2048) :
    k0_pay3 a (ix3 (0 : Fin 1) t h) = a (ix2 t h) := by
  unfold k0_pay3
  exact shapeCast_ab_1ab_apply a shapeCasts_S512x2048_S1x512x2048 (0 : Fin 1) t h

end Cert.KernelIdeal.HandValue

end
-- ==== Proof.KIBlocks.lean ====
import proofs.«181277_j8916352106544_1_alg».proof.Proof.KIData
import proofs.«181277_j8916352106544_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Spec
open Idealize.ShloMosaic.Pipeline (Dat)

variable {F : FTy → Type} [FloatOps F]
variable (m : (ℓ : Loc nD τ sig) → Buf (Elt F) ℓ)

/-- The expert and the tile of grid point n (row-major: n = 32·e + k). -/
def ptE (n : Fin cfg0.N) : Fin 16 := ⟨n.val / 32, by have := n.isLt; have : cfg0.N = 512 := N_0; omega⟩
def ptK (n : Fin cfg0.N) : Fin 32 := ⟨n.val % 32, Nat.mod_lt _ (by norm_num)⟩

/-! ## The arrays as the region finds them -/

/-- The stacked gate/up weights are an argument: no host operation writes them before the region. -/
theorem V1_arg1 (c : Dev nD) : V1 m c main_arg1 = m ((c.tc : Thread nD τ).loc main_arg1) := by
  dsimp only [V1, W1, hostOps0]; after_results

/-- So are the down weights. -/
theorem V1_arg2 (c : Dev nD) : V1 m c main_arg2 = m ((c.tc : Thread nD τ).loc main_arg2) := by
  dsimp only [V1, W1, hostOps0]; after_results

/-- The token array as the region finds it is the host's reshape of the argument to expert × token × hidden. -/
theorem V1_v0 (c : Dev nD) : (V1 m c main_v0 : S16x512x2048.Idx → Elt F .f32)
    = shapeCast S16x512x2048 (m ((c.tc : Thread nD τ).loc main_arg0) : S8192x2048.Idx → Elt F .f32)
        Facts₀.shapeCasts_S8192x2048_S16x512x2048 := by
  dsimp only [V1, W1, hostOps0]; after_results; rfl

/-- The reshape at an index: entry (e, t, l) of the grouped array is entry (512·e + t, l) of the token array. -/
theorem grouped_apply (x : S8192x2048.Idx → Elt F .f32) (e : Fin 16) (t : Fin 512) (l : Fin 2048) :
    shapeCast S16x512x2048 x Facts₀.shapeCasts_S8192x2048_S16x512x2048 (ix3 e t l) = x (ix2 (tok e t) l) := by
  refine shapeCast_apply x _ (ix3 e t l) (ix2 (tok e t) l) ?_
  rw [Shape.rowMajor_val_two, Shape.rowMajor_val_three]
  show (e.val * 512 + t.val) * 2048 + l.val = (e.val * 512 + t.val) * 2048 + l.val
  rfl

/-! ## The windows' block indices over the grid -/

/-- The token window's block index at a point: (expert, 0, 0). -/
theorem tokIdx : ∀ t : Fin cfg0.N, win0_0.index t (0 : Fin 3) = t.val / 32 ∧ win0_0.index t (1 : Fin 3) = 0
    ∧ win0_0.index t (2 : Fin 3) = 0 :=
  (by decide +kernel : ∀ t : Fin grid0.N, _)

/-- The gate window's block index at a point: (expert, tile, 0). -/
theorem gateIdx : ∀ t : Fin cfg0.N, win0_1.index t (0 : Fin 3) = t.val / 32 ∧ win0_1.index t (1 : Fin 3) = t.val % 32
    ∧ win0_1.index t (2 : Fin 3) = 0 :=
  (by decide +kernel : ∀ t : Fin grid0.N, _)

/-- The up window's block index at a point: (expert, 32 + tile, 0), the second half of the stacked rows. -/
theorem upIdx : ∀ t : Fin cfg0.N, win0_2.index t (0 : Fin 3) = t.val / 32 ∧ win0_2.index t (1 : Fin 3) = 32 + t.val % 32
    ∧ win0_2.index t (2 : Fin 3) = 0 :=
  (by decide +kernel : ∀ t : Fin grid0.N, _)

/-- The down window's block index at a point: (expert, 0, tile). -/
theorem downIdx : ∀ t : Fin cfg0.N, win0_3.index t (0 : Fin 3) = t.val / 32 ∧ win0_3.index t (1 : Fin 3) = 0
    ∧ win0_3.index t (2 : Fin 3) = t.val % 32 :=
  (by decide +kernel : ∀ t : Fin grid0.N, _)

/-- The output window's block index at a point: (expert, 0, 0). -/
theorem outIdx : ∀ t : Fin cfg0.N, win0_4.index t (0 : Fin 3) = t.val / 32 ∧ win0_4.index t (1 : Fin 3) = 0
    ∧ win0_4.index t (2 : Fin 3) = 0 :=
  (by decide +kernel : ∀ t : Fin grid0.N, _)

/-! ## The input blocks -/

/-- The token block at point n is expert e's 512 rows of the token array. -/
theorem xblk_apply (c : Dev nD) (n : Fin cfg0.N) (t : Fin 512) (l : Fin 2048) :
    xblk m c n (ix3 (0 : Fin 1) t l) = m ((c.tc : Thread nD τ).loc main_arg0) (ix2 (tok (ptE n) t) l) := by
  obtain ⟨e0, e1, e2⟩ := tokIdx n
  show iblk m c 0 n _ = _
  unfold iblk
  rw [View.read_apply]
  show (V1 m c main_v0 : S16x512x2048.Idx → Elt F .f32) _ = m (c.tc.loc main_arg0) _
  rw [V1_v0]
  refine Eq.trans ?_ (grouped_apply (m (c.tc.loc main_arg0)) (ptE n) t l)
  congr 1
  funext a
  apply Fin.ext
  match a with
  | ⟨0, _⟩ => show win0_0.index n (0 : Fin 3) * 1 + 1 * 0 = n.val / 32; rw [e0]; omega
  | ⟨1, _⟩ => show win0_0.index n (1 : Fin 3) * 512 + 1 * t.val = t.val; rw [e1]; omega
  | ⟨2, _⟩ => show win0_0.index n (2 : Fin 3) * 2048 + 1 * l.val = l.val; rw [e2]; omega

/-- The gate tile at point n: rows 128·k … 128·k + 127 of expert e's stacked weights. -/
theorem gblk_apply (c : Dev nD) (n : Fin cfg0.N) (j : Fin 128) (l : Fin 2048) :
    gblk m c n (ix3 (0 : Fin 1) j l) = m ((c.tc : Thread nD τ).loc main_arg1) (ix3 (ptE n) (gateRow (tileCol (ptK n) j)) l) := by
  obtain ⟨e0, e1, e2⟩ := gateIdx n
  show iblk m c 1 n _ = _
  unfold iblk
  rw [View.read_apply]
  show V1 m c main_arg1 _ = m (c.tc.loc main_arg1) _
  rw [V1_arg1]
  congr 1
  funext a
  apply Fin.ext
  match a with
  | ⟨0, _⟩ => show win0_1.index n (0 : Fin 3) * 1 + 1 * 0 = n.val / 32; rw [e0]; omega
  | ⟨1, _⟩ => show win0_1.index n (1 : Fin 3) * 128 + 1 * j.val = 128 * (n.val % 32) + j.val; rw [e1]; omega
  | ⟨2, _⟩ => show win0_1.index n (2 : Fin 3) * 2048 + 1 * l.val = l.val; rw [e2]; omega

/-- The up tile at point n: rows 4096 + 128·k … of expert e's stacked weights. -/
theorem ublk_apply (c : Dev nD) (n : Fin cfg0.N) (j : Fin 128) (l : Fin 2048) :
    ublk m c n (ix3 (0 : Fin 1) j l) = m ((c.tc : Thread nD τ).loc main_arg1) (ix3 (ptE n) (upRow (tileCol (ptK n) j)) l) := by
  obtain ⟨e0, e1, e2⟩ := upIdx n
  show iblk m c 2 n _ = _
  unfold iblk
  rw [View.read_apply]
  show V1 m c main_arg1 _ = m (c.tc.loc main_arg1) _
  rw [V1_arg1]
  congr 1
  funext a
  apply Fin.ext
  match a with
  | ⟨0, _⟩ => show win0_2.index n (0 : Fin 3) * 1 + 1 * 0 = n.val / 32; rw [e0]; omega
  | ⟨1, _⟩ => show win0_2.index n (1 : Fin 3) * 128 + 1 * j.val = 4096 + (128 * (n.val % 32) + j.val); rw [e1]; omega
  | ⟨2, _⟩ => show win0_2.index n (2 : Fin 3) * 2048 + 1 * l.val = l.val; rw [e2]; omega

/-- The down tile at point n: columns 128·k … of expert e's down weights. -/
theorem dblk_apply (c : Dev nD) (n : Fin cfg0.N) (h : Fin 2048) (j : Fin 128) :
    dblk m c n (ix3 (0 : Fin 1) h j) = m ((c.tc : Thread nD τ).loc main_arg2) (ix3 (ptE n) h (tileCol (ptK n) j)) := by
  obtain ⟨e0, e1, e2⟩ := downIdx n
  show iblk m c 3 n _ = _
  unfold iblk
  rw [View.read_apply]
  show V1 m c main_arg2 _ = m (c.tc.loc main_arg2) _
  rw [V1_arg2]
  congr 1
  funext a
  apply Fin.ext
  match a with
  | ⟨0, _⟩ => show win0_3.index n (0 : Fin 3) * 1 + 1 * 0 = n.val / 32; rw [e0]; omega
  | ⟨1, _⟩ => show win0_3.index n (1 : Fin 3) * 2048 + 1 * h.val = h.val; rw [e1]; omega
  | ⟨2, _⟩ => show win0_3.index n (2 : Fin 3) * 128 + 1 * j.val = 128 * (n.val % 32) + j.val; rw [e2]; omega

/-! ## The output array -/

/-- The last point of expert e (tile 31). -/
def lastPt (e : Fin 16) : Fin cfg0.N := ⟨32 * e.val + 31, by have : cfg0.N = 512 := N_0; omega⟩

/-- An index of the output array is in point t's block iff each coordinate is in the block's range on its axis. -/
theorem mem_outBlk (t : Fin cfg0.N) (i : S16x512x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v1).slice (win0_4.rect t)).set ↔ _
  rw [View.set_slice_whole, Rect.mem_set_unit]
  exact Iff.rfl

/-- Two different points that write the output back write different experts' blocks. -/
theorem outBlk_disjoint (t t' : Fin cfg0.N) (hf : (cfg0.win 4).flush t = true) (hf' : (cfg0.win 4).flush t' = true)
    (hne : t ≠ t') : Disjoint ((cfg0.win 4).blk t).view.set ((cfg0.win 4).blk t').view.set := by
  rw [Finset.disjoint_left]
  intro i hi hi'
  rw [mem_outBlk] at hi hi'
  have b : win0_4.index t (0 : Fin 3) * 1 ≤ (i 0).val ∧ (i 0).val < win0_4.index t (0 : Fin 3) * 1 + 1 := hi 0
  have b' : win0_4.index t' (0 : Fin 3) * 1 ≤ (i 0).val ∧ (i 0).val < win0_4.index t' (0 : Fin 3) * 1 + 1 := hi' 0
  have k := (flush0_4 t).mp hf
  have k' := (flush0_4 t').mp hf'
  obtain ⟨e0, -, -⟩ := outIdx t
  obtain ⟨e0', -, -⟩ := outIdx t'
  exact hne (Fin.ext (by omega))

/-- After the region the output array holds, in expert e's block, what the body stored into the output window at
    expert e's last tile: the pipeline writes a block back exactly there, and the 16 blocks tile the array. -/
theorem arrAt_out (c : Dev nD) (e : Fin 16) (t : Fin 512) (h : Fin 2048) :
    (dat m c).arrAt 4 cfg0.N (ix3 e t h) = k0_pay3 (scAt m c (lastPt e).val (lastPt e).isLt) (ix3 (0 : Fin 1) t h) := by
  have hf : (cfg0.win 4).flush (lastPt e) = true := (flush0_4 (lastPt e)).mpr (by show (32 * e.val + 31) % 32 = 31; omega)
  obtain ⟨e0, e1, e2⟩ := outIdx (lastPt e)
  have hv : (lastPt e).val = 32 * e.val + 31 := rfl
  have key := (dat m c).arrAt_emb_eq_flushed 4 outBlk_disjoint (lastPt e) hf (ix3 (0 : Fin 1) t h)
  have hemb : ((cfg0.win 4).blk (lastPt e)).view.emb (ix3 (0 : Fin 1) t h) = (ix3 e t h : S16x512x2048.Idx) := by
    funext a
    apply Fin.ext
    match a with
    | ⟨0, _⟩ => show win0_4.index (lastPt e) (0 : Fin 3) * 1 + 1 * 0 = e.val; rw [e0, hv]; omega
    | ⟨1, _⟩ => show win0_4.index (lastPt e) (1 : Fin 3) * 512 + 1 * t.val = t.val; rw [e1]; omega
    | ⟨2, _⟩ => show win0_4.index (lastPt e) (2 : Fin 3) * 2048 + 1 * h.val = h.val; rw [e2]; omega
  rw [hemb] at key
  refine key.trans ?_
  show (dat m c).after 4 (lastPt e) (ix3 (0 : Fin 1) t h) = _
  rw [after_4]

end Cert.KernelIdeal.HandValue

end
-- ==== Proof.KIValue.lean ====
import proofs.«181277_j8916352106544_1_alg».proof.Proof.KIPay
import proofs.«181277_j8916352106544_1_alg».proof.Proof.KIBlocks
import proofs.«181277_j8916352106544_1_alg».proof.Proof.KIFrame

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Spec
open Idealize.ShloMosaic.Pipeline (Dat)

variable (m : (ℓ : Loc nD τ sig) → Buf (Elt Ideal) ℓ)

/-- The three argument arrays of core c, as the specification takes them. -/
abbrev aX (c : Dev nD) : SX.Idx → EReal := m ((c.tc : Thread nD τ).loc main_arg0)
abbrev aW (c : Dev nD) : SW.Idx → EReal := m ((c.tc : Thread nD τ).loc main_arg1)
abbrev aD (c : Dev nD) : SD.Idx → EReal := m ((c.tc : Thread nD τ).loc main_arg2)

/-- What one grid point adds to the accumulator, over the point's four blocks, is the specification's partial sum
    of the point's tile: the blocks are the tile's rows and columns of the argument arrays. -/
theorem tile_eq (c : Dev nD) (n : Fin cfg0.N) (t : Fin 512) (h : Fin 2048) :
    (∑ j : Fin 128,
        ((∑ l : Fin 2048, (xblk m c n (ix3 (0 : Fin 1) t l) : EReal) * ublk m c n (ix3 (0 : Fin 1) j l))
          * ((∑ l : Fin 2048, (xblk m c n (ix3 (0 : Fin 1) t l) : EReal) * gblk m c n (ix3 (0 : Fin 1) j l))
            * Ideal.logistic (∑ l : Fin 2048, (xblk m c n (ix3 (0 : Fin 1) t l) : EReal) * gblk m c n (ix3 (0 : Fin 1) j l))))
        * dblk m c n (ix3 (0 : Fin 1) h j))
      = part (aX m c) (aW m c) (aD m c) (ptE n) t h (ptK n) := by
  unfold part act up gate
  refine Finset.sum_congr rfl fun j _ => ?_
  simp only [xblk_apply, gblk_apply, ublk_apply, dblk_apply]

/-- After the body at point n the accumulator holds, at (t, h), the tiles 0 … k of expert e's down projection
    summed (n = 32·e + k): zero plus the first tile at k = 0, the previous point's sum plus tile k elsewhere. -/
theorem scAt_eq (c : Dev nD) (t : Fin 512) (h : Fin 2048) : ∀ (n : ℕ) (hn : n < cfg0.N),
    (scAt m c n hn (ix2 t h) : EReal)
      = accTo (aX m c) (aW m c) (aD m c) (ptE ⟨n, hn⟩) t h ((ptK ⟨n, hn⟩).val + 1) := by
  intro n
  induction n with
  | zero =>
    intro hn
    rw [scAt_first m c ⟨0, hn⟩ (Nat.zero_mod _)]
    refine (pay2_apply _ _ _ _ _ t h).trans ?_
    rw [pay1_apply, tile_eq m c ⟨0, hn⟩ t h, accTo_succ, show ((ptK ⟨0, hn⟩ : Fin 32).val) = 0 from Nat.zero_mod _, accTo_zero]
  | succ n ih =>
    intro hn
    by_cases h0 : (n + 1) % 32 = 0
    · rw [scAt_first m c ⟨n + 1, hn⟩ h0]
      refine (pay2_apply _ _ _ _ _ t h).trans ?_
      rw [pay1_apply, tile_eq m c ⟨n + 1, hn⟩ t h, accTo_succ, show ((ptK ⟨n + 1, hn⟩ : Fin 32).val) = 0 from h0, accTo_zero]
    · rw [scAt_next m c ⟨n + 1, hn⟩ h0]
      refine (pay2_apply _ _ _ _ _ t h).trans ?_
      rw [tile_eq m c ⟨n + 1, hn⟩ t h, accTo_succ]
      have hprev := ih (Nat.lt_of_succ_lt hn)
      have hE : ptE ⟨n, Nat.lt_of_succ_lt hn⟩ = ptE ⟨n + 1, hn⟩ := Fin.ext (by simp only [ptE]; omega)
      have hK : (ptK ⟨n, Nat.lt_of_succ_lt hn⟩).val + 1 = (ptK ⟨n + 1, hn⟩).val := by simp only [ptK]; omega
      rw [hE, hK] at hprev
      exact congrArg (· + _) hprev

/-- The output array after the region is the specification, expert block by expert block: block e holds the
    accumulator after expert e's last tile, which is all 32 tiles summed. -/
theorem arr_eq (c : Dev nD) (e : Fin 16) (t : Fin 512) (h : Fin 2048) :
    ((dat m c).arrAt 4 cfg0.N (ix3 e t h) : EReal) = out (aX m c) (aW m c) (aD m c) e t h := by
  rw [arrAt_out, pay3_apply, scAt_eq m c t h _ (lastPt e).isLt]
  have hE : ptE (lastPt e) = e := Fin.ext (by simp only [ptE, lastPt]; omega)
  have hK : (ptK (lastPt e)).val + 1 = 32 := by simp only [ptK, lastPt]; omega
  rw [show (⟨(lastPt e).val, (lastPt e).isLt⟩ : Fin cfg0.N) = lastPt e from rfl, hE, hK, accTo_all]

/-- The kernel's result buffer is the specification of the launch memory's arguments. -/
theorem kernel_result (c : Dev nD) :
    shapeCast S8192x2048 ((dat m c).arrAt 4 cfg0.N) shapeCasts_S16x512x2048_S8192x2048 = G (aX m c) (aW m c) (aD m c) := by
  funext j
  obtain ⟨r, h, rfl⟩ : ∃ (r : Fin 8192) (h : Fin 2048), j = ix2 r h := ⟨j 0, j 1, eq_ix2 j⟩
  have hr := r.isLt
  rw [shapeCast_apply _ _ _ (ix3 (⟨r.val / 512, by omega⟩ : Fin 16) (⟨r.val % 512, Nat.mod_lt _ (by norm_num)⟩ : Fin 512) h)
    (by rw [Shape.rowMajor_val_three, Shape.rowMajor_val_two]
        show (r.val / 512 * 512 + r.val % 512) * 2048 + h.val = r.val * 2048 + h.val
        rw [Nat.div_add_mod' r.val 512])]
  exact arr_eq m c _ _ h

end Cert.KernelIdeal.HandValue

end
-- ==== Proof.RefValue.lean ====
import proofs.«181277_j8916352106544_1_alg».proof.Proof.Gen.ReferenceIdeal.Run
import proofs.«181277_j8916352106544_1_alg».proof.Proof.Gen.ReferenceIdeal.Read
import proofs.«181277_j8916352106544_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.Spec
open Cert.ReferenceIdeal.Read

/-! ## The stacked projection, one element -/

/-- Element (e, t, r) of the batched contraction of the regrouped tokens with the stacked weights: token t of expert e
    against row r of expert e's stacked weights, summed over the hidden axis. The regrouping is row-major, so the
    token sits at row e·512 + t of the token array. -/
theorem stacked_at (a0 : FVec Ideal S8192x2048 .f32) (a1 : FVec Ideal S16x8192x2048 .f32)
    (e : Fin 16) (t : Fin 512) (r : Fin 8192) :
    val_main_v1 (F := Ideal) a0 a1 (ix3 e t r) = ∑ l : Fin 2048, a0 (ix2 (tok e t) l) * a1 (ix3 e r l) := by
  rw [val_main_v1_apply]
  refine Finset.sum_congr rfl fun l _ => ?_
  rw [val_main_v0_apply]
  have hx : idx_main_v0 (lidx_main_v1 (ix3 e t r) l) = ix2 (tok e t) l := funext fun a => Fin.ext (by
    match a with
    | ⟨0, _⟩ => show ((e.val * 512 + t.val) * 2048 + l.val) / 2048 = e.val * 512 + t.val; omega
    | ⟨1, _⟩ => show ((e.val * 512 + t.val) * 2048 + l.val) % 2048 = l.val; omega)
  have hw : ridx_main_v1 (ix3 e t r) l = ix3 e r l := funext fun a => Fin.ext (by
    match a with
    | ⟨0, _⟩ => rfl
    | ⟨1, _⟩ => rfl
    | ⟨2, _⟩ => rfl)
  rw [hx, hw]

/-- The first slice of the stacked projection is the gate projection. -/
theorem gate_at (a0 : FVec Ideal S8192x2048 .f32) (a1 : FVec Ideal S16x8192x2048 .f32)
    (e : Fin 16) (t : Fin 512) (i : Fin 4096) :
    val_main_v2 (F := Ideal) a0 a1 (ix3 e t i) = gate a0 a1 e t i := by
  rw [val_main_v2_apply]
  have h : idx_main_v2 (ix3 e t i) = ix3 e t (gateRow i) := funext fun a => Fin.ext (by
    match a with
    | ⟨0, _⟩ => rfl
    | ⟨1, _⟩ => rfl
    | ⟨2, _⟩ => rfl)
  rw [h, stacked_at]
  rfl

/-- The second slice, 4096 rows further on, is the up projection. -/
theorem up_at (a0 : FVec Ideal S8192x2048 .f32) (a1 : FVec Ideal S16x8192x2048 .f32)
    (e : Fin 16) (t : Fin 512) (i : Fin 4096) :
    val_main_v3 (F := Ideal) a0 a1 (ix3 e t i) = up a0 a1 e t i := by
  rw [val_main_v3_apply]
  have h : idx_main_v3 (ix3 e t i) = ix3 e t (upRow i) := funext fun a => Fin.ext (by
    match a with
    | ⟨0, _⟩ => rfl
    | ⟨1, _⟩ => rfl
    | ⟨2, _⟩ => rfl)
  rw [h, stacked_at]
  rfl

/-! ## The activation -/

/-- The quotient 1 / (1 + exp(-g)), with both ones spelt as the word 0x3F800000 broadcast from a scalar, is the
    logistic function of the gate slice's element. -/
theorem sigma_at (a0 : FVec Ideal S8192x2048 .f32) (a1 : FVec Ideal S16x8192x2048 .f32) (i : S16x512x4096.Idx) :
    val_main_call0_v5 (F := Ideal) a0 a1 i = Ideal.logistic (val_main_v2 (F := Ideal) a0 a1 i) := by
  rw [val_main_call0_v5_apply, val_main_call0_v4_apply, val_main_call0_cst_0_apply, val_main_call0_v3_apply,
    val_main_call0_v2_apply, val_main_call0_cst_apply, val_main_call0_v1_apply, val_main_call0_v0_apply,
    Ideal.ofBits_def, Ideal.ofBits_one_f32]
  rfl

/-- The product of the up slice with the gate slice times its logistic value is the gated activation. -/
theorem act_at (a0 : FVec Ideal S8192x2048 .f32) (a1 : FVec Ideal S16x8192x2048 .f32)
    (e : Fin 16) (t : Fin 512) (i : Fin 4096) :
    val_main_v5 (F := Ideal) a0 a1 (ix3 e t i) = act a0 a1 e t i := by
  rw [val_main_v5_apply, val_main_v4_apply, sigma_at, up_at, gate_at]
  rfl

/-! ## The down projection and the regrouping back -/

/-- Element (e, t, h) of the second batched contraction is the down projection. -/
theorem out_at (a0 : FVec Ideal S8192x2048 .f32) (a1 : FVec Ideal S16x8192x2048 .f32) (a2 : FVec Ideal S16x2048x4096 .f32)
    (e : Fin 16) (t : Fin 512) (h : Fin 2048) :
    val_main_v6 (F := Ideal) a0 a1 a2 (ix3 e t h) = out a0 a1 a2 e t h := by
  rw [val_main_v6_apply]
  unfold out
  refine Finset.sum_congr rfl fun i _ => ?_
  have hl : lidx_main_v6 (ix3 e t h) i = ix3 e t i := funext fun a => Fin.ext (by
    match a with
    | ⟨0, _⟩ => rfl
    | ⟨1, _⟩ => rfl
    | ⟨2, _⟩ => rfl)
  have hr : ridx_main_v6 (ix3 e t h) i = ix3 e h i := funext fun a => Fin.ext (by
    match a with
    | ⟨0, _⟩ => rfl
    | ⟨1, _⟩ => rfl
    | ⟨2, _⟩ => rfl)
  rw [hl, hr, act_at]

/-- The reference's result term (the generated run's, at the ideal instance) is the specification: the two batched
    contractions are the per-expert sums, the two slices are the gate and the up half, and jax's expansion
    1 / (1 + exp(-g)) is the logistic function on the extended reals. -/
theorem ref_result (a0 : FVec Ideal S8192x2048 .f32) (a1 : FVec Ideal S16x8192x2048 .f32) (a2 : FVec Ideal S16x2048x4096 .f32) :
    shapeCast S8192x2048 (Host.dotGeneral dot_S16x512x4096_S16x2048x4096_S16x512x2048_2_2_1_1_0_0 none (mulf (extractStridedSlice S16x512x4096 ![0, 0, 4096] (Host.dotGeneral dot_S16x512x2048_S16x8192x2048_S16x512x8192_2_2_1_1_0_0 none (shapeCast S16x512x2048 a0 shapeCasts_S8192x2048_S16x512x2048) a1) slices_S16x512x8192_S16x512x4096_0_0_4096) (mulf (extractStridedSlice S16x512x4096 ![0, 0, 0] (Host.dotGeneral dot_S16x512x2048_S16x8192x2048_S16x512x8192_2_2_1_1_0_0 none (shapeCast S16x512x2048 a0 shapeCasts_S8192x2048_S16x512x2048) a1) slices_S16x512x8192_S16x512x4096_0_0_0) (Host.divf (broadcastInDim S16x512x4096 ![] bcast_S_S16x512x4096 (constant S_ .f32 0x3F800000#32)) (addf (broadcastInDim S16x512x4096 ![] bcast_S_S16x512x4096 (constant S_ .f32 0x3F800000#32)) (Host.exp (Host.negf (extractStridedSlice S16x512x4096 ![0, 0, 0] (Host.dotGeneral dot_S16x512x2048_S16x8192x2048_S16x512x8192_2_2_1_1_0_0 none (shapeCast S16x512x2048 a0 shapeCasts_S8192x2048_S16x512x2048) a1) slices_S16x512x8192_S16x512x4096_0_0_0))))))) a2) shapeCasts_S16x512x2048_S8192x2048
      = (G a0 a1 a2 : FVec Ideal S8192x2048 .f32) := by
  refine (val_main_v7_eq (F := Ideal) a0 a1 a2).trans ?_
  funext j
  obtain ⟨p, q, rfl⟩ : ∃ (p : Fin 8192) (q : Fin 2048), j = ix2 p q := ⟨j 0, j 1, eq_ix2 j⟩
  rw [val_main_v7_apply]
  have hj : idx_main_v7 (ix2 p q) = ix3 (⟨p.val / 512, by omega⟩ : Fin 16) (⟨p.val % 512, Nat.mod_lt _ (by norm_num)⟩ : Fin 512) q :=
    funext fun a => Fin.ext (by
      match a with
      | ⟨0, _⟩ => show (p.val * 2048 + q.val) / 1048576 = p.val / 512; omega
      | ⟨1, _⟩ => show (p.val * 2048 + q.val) / 2048 % 512 = p.val % 512; omega
      | ⟨2, _⟩ => show (p.val * 2048 + q.val) % 2048 = q.val; omega)
  rw [hj, out_at]
  rfl

end Cert.ReferenceIdeal.RefValue

end
-- ==== Proof.lean ====
/-
  The certificate of a mixture-of-experts MLP kernel against its jnp reference, over the extended reals.

  For each of 16 experts the kernel projects the expert's 512 tokens with the stacked gate/up weights, gates the up
  half with up · (gate · σ(gate)) (σ the logistic function), and projects back with the down weights; it does so
  tile by tile over the 4096 intermediate columns (32 tiles of 128), keeping the sum of the tiles' contributions in
  an accumulator that starts at zero and is written to the result at the last tile. The reference computes both
  projections with one batched contraction each and spells σ as 1 / (1 + exp(−g)).

  At the ideal instance both are the specification Cert.Spec.G of the three argument arrays: the matrix unit's
  product into zero and the host's contraction are the same finite sum, a change of float format is the identity,
  the kernel's logistic operation is the reference's expansion, and the sum over 4096 columns is the sum over the
  32 tiles of the tiles' sums (addition on the extended reals is commutative and associative: no finiteness of the
  inputs is used). The kernel's frames (it runs to the end, faults nowhere, leaves its arguments unchanged) are
  proved once for any float instance — the region's proof data with the accumulator tracked in the invariant, the
  body's three control cases, the launch with the stacked weights' read share split between the two windows that
  read it — and cited at the word-level instance and at the ideal one. The reference's frame and value are its
  generated run. The idealization rewrote nothing, so the preservation claim is trivial.
-/
import proofs.«181277_j8916352106544_1_alg».proof.Defs
import proofs.«181277_j8916352106544_1_alg».proof.Proof.Gen.Kernel
import proofs.«181277_j8916352106544_1_alg».proof.Proof.Gen.KernelIdeal
import proofs.«181277_j8916352106544_1_alg».proof.Proof.Gen.ReferenceIdeal
import proofs.«181277_j8916352106544_1_alg».proof.Proof.Gen.Pre_finite_inputs
import proofs.«181277_j8916352106544_1_alg».proof.Proof.Gen.ReferenceIdeal.Run
import proofs.«181277_j8916352106544_1_alg».proof.Proof.KFrame
import proofs.«181277_j8916352106544_1_alg».proof.Proof.KIFrame
import proofs.«181277_j8916352106544_1_alg».proof.Proof.KIValue
import proofs.«181277_j8916352106544_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification of those arguments in
    their result buffers. -/
theorem algebraic : Cert.algebraic_KernelIdeal_ReferenceIdeal := by
  intro m ρ m' ρ' _ hagree
  refine ⟨fun c => Cert.Spec.G (Cert.KernelIdeal.HandValue.aX m c) (Cert.KernelIdeal.HandValue.aW m c) (Cert.KernelIdeal.HandValue.aD m c), ?_, ?_⟩
  · exact (θ_run Cert.KernelIdeal.defs _ _).mono
      (fun _ h c => ⟨(h c).1.trans (Cert.KernelIdeal.HandValue.kernel_result m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_result, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
